-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x3 .f32) (main_arg15 : FVec F S3 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x3 .f32 := Host.absf main_arg14
  let main_cst_22 : FVec F S_ .f32 := constant S_ .f32 0x7F800000#32
  let main_v60 : FVec F S64x3 .f32 := broadcastInDim S64x3 ![] bcast_S_S64x3 main_cst_22
  let main_v61 : IVec S64x3 1 := cmpf .olt main_v59 main_v60
  let main_c_23 : IVec S_ 1 := constantI S_ 1 1#1
  let main_v62 : IVec S_ 1 := (fun x v => Host.reduce IntOp.andi x v reducesTo_S64x3_S_d0_1 h_S_) main_v61 main_c_23
  let main_v63 : IVec S_ 1 := andi main_v58 main_v62
  let main_v64 : FVec F S3 .f32 := Host.absf main_arg15
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_arg14 : FVec F S64x3 .f32) (main_arg15 : FVec F S3 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x3 .f32) (main_arg15 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x3 .f32) (main_arg15 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S5000x64 : Shape := ⟨2, ![5000, 64]⟩
abbrev S100000x1 : Shape := ⟨2, ![100000, 1]⟩
abbrev S128x64 : Shape := ⟨2, ![128, 64]⟩
abbrev S5000x1 : Shape := ⟨2, ![5000, 1]⟩
abbrev S5000x128 : Shape := ⟨2, ![5000, 128]⟩
abbrev S1x3 : Shape := ⟨2, ![1, 3]⟩
abbrev S128x3 : Shape := ⟨2, ![128, 3]⟩
abbrev S128 : Shape := ⟨1, ![128]⟩
abbrev S128x1 : Shape := ⟨2, ![128, 1]⟩

abbrev nBuf : Space → Nat
  | .hbm => 70
  | .vmem => 38
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x3, .f32⟩
  | .hbm, ⟨15, _⟩ => ⟨S3, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1200000x64, .f32⟩
  | .hbm, ⟨29, _⟩ => ⟨S_, .f32⟩
  | .hbm, ⟨30, _⟩ => ⟨S100000x64, .f32⟩
  | .hbm, ⟨31, _⟩ => ⟨S1200000x1, .i32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x64, .f32⟩
  | .hbm, ⟨44, _⟩ => ⟨S_, .f32⟩
  | .hbm, ⟨45, _⟩ => ⟨S100000x64, .f32⟩
  | .hbm, ⟨46, _⟩ => ⟨S1200000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x1, .i32⟩
  | .hbm, ⟨66, _⟩ => ⟨S128x64, .f32⟩
  | .hbm, ⟨67, _⟩ => ⟨S1x64, .f32⟩
  | .hbm, ⟨68, _⟩ => ⟨S1x3, .f32⟩
  | .hbm, ⟨69, _⟩ => ⟨S128x3, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .i32⟩
  | .local _ .vmem, ⟨30, _⟩ => ⟨S5000x1, .i32⟩
  | .local _ .vmem, ⟨31, _⟩ => ⟨S128x64, .f32⟩
  | .local _ .vmem, ⟨32, _⟩ => ⟨S128x64, .f32⟩
  | .local _ .vmem, ⟨33, _⟩ => ⟨S64x64, .f32⟩
  | .local _ .vmem, ⟨34, _⟩ => ⟨S1x64, .f32⟩
  | .local _ .vmem, ⟨35, _⟩ => ⟨S64x3, .f32⟩
  | .local _ .vmem, ⟨36, _⟩ => ⟨S1x3, .f32⟩
  | .local _ .vmem, ⟨37, _⟩ => ⟨S128x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S100000_S100000x1 : S100000.ShapeCasts S100000x1
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  shapeCasts_S128x64_S128x64 : S128x64.ShapeCasts S128x64
  shapeCasts_S3_S1x3 : S3.ShapeCasts S1x3
  broadcasts_S1x64_S128x64 : S1x64.Broadcasts S128x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S128x3 : S1x3.Broadcasts S128x3
  reduces_S128x3_S128 : S128x3.Reduces [1] S128
  shapeCasts_S128_S128x1 : S128.ShapeCasts S128x1
  broadcasts_S128x1_S128x3 : S128x1.Broadcasts S128x3
  inb_S128x3_S128x3_0_0 : ∀ a, (![0, 0] : Fin 2 → Nat) a + S128x3.size a ≤ S128x3.size a
  h_S128x3 : 0 < S128x3.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x64_S128x64_1_0_0_1_n_n_wf : DotDims.WF S128x64 S64x64 S128x64 [1] [0] [0] [1] [] []
  dot_S128x64_S64x3_S128x3_1_0_0_1_n_n_wf : DotDims.WF S128x64 S64x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x64.size a ≤ S128x64.size a
  hwx4_0 : ∀ i : grid4.Coords, EltTy.bits .f32 = 32 ∨ (Rect.block (s := S128x64) S128x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x3.size a ≤ S64x3.size a
  hwx4_3 : ∀ i : grid4.Coords, EltTy.bits .f32 = 32 ∨ (Rect.block (s := S64x3) S64x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x3.size a ≤ S128x3.size a
  hwx4_5 : ∀ i : grid4.Coords, EltTy.bits .f32 = 32 ∨ (Rect.block (s := S128x3) S128x3.size (cc4_transform_5 i) (hinb4_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x3_S128x3_1_0_0_1_n_n : DotDims S128x64 S64x3 S128x3 where
  lhsContracting := [1]
  rhsContracting := [0]
  lhsNonContracting := [0]
  rhsNonContracting := [1]
  lhsBatch := []
  rhsBatch := []
  wf := dot_S128x64_S64x3_S128x3_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S128x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S128x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S64x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v44) S128x3.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S64x3 : Shape := ⟨2, ![64, 3]⟩
abbrev S3 : Shape := ⟨1, ![3]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S128x64 : Shape := ⟨2, ![128, 64]⟩
abbrev S100000x1 : Shape := ⟨2, ![100000, 1]⟩
abbrev S128x3 : Shape := ⟨2, ![128, 3]⟩
abbrev S1x3 : Shape := ⟨2, ![1, 3]⟩
abbrev S128 : Shape := ⟨1, ![128]⟩
abbrev S128x1 : Shape := ⟨2, ![128, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x3, .f32⟩
  | .hbm, ⟨15, _⟩ => ⟨S3, .f32⟩
  | .hbm, ⟨16, _⟩ => ⟨S1x1200000, .i32⟩
  | .hbm, ⟨17, _⟩ => ⟨S1200000, .i32⟩
  | .hbm, ⟨18, _⟩ => ⟨S1x1200000, .i32⟩
  | .hbm, ⟨19, _⟩ => ⟨S1200000, .i32⟩
  | .hbm, ⟨20, _⟩ => ⟨S_, .i32⟩
  | .hbm, ⟨21, _⟩ => ⟨S1200000, .i32⟩
  | .hbm, ⟨22, _⟩ => ⟨S1200000, .i1⟩
  | .hbm, ⟨23, _⟩ => ⟨S_, .i32⟩
  | .hbm, ⟨24, _⟩ => ⟨S1200000, .i32⟩
  | .hbm, ⟨25, _⟩ => ⟨S1200000, .i32⟩
  | .hbm, ⟨26, _⟩ => ⟨S1200000, .i32⟩
  | .hbm, ⟨27, _⟩ => ⟨S1200000x1, .i32⟩
  | .hbm, ⟨28, _⟩ => ⟨S1200000x64, .f32⟩
  | .hbm, ⟨29, _⟩ => ⟨S_, .f32⟩
  | .hbm, ⟨30, _⟩ => ⟨S100000x64, .f32⟩
  | .hbm, ⟨31, _⟩ => ⟨S1200000x1, .i32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1200000, .i32⟩
  | .hbm, ⟨44, _⟩ => ⟨S1200000, .i1⟩
  | .hbm, ⟨45, _⟩ => ⟨S_, .i32⟩
  | .hbm, ⟨46, _⟩ => ⟨S1200000, .i32⟩
  | .hbm, ⟨47, _⟩ => ⟨S1200000, .i32⟩
  | .hbm, ⟨48, _⟩ => ⟨S1200000, .i32⟩
  | .hbm, ⟨49, _⟩ => ⟨S1200000x1, .i32⟩
  | .hbm, ⟨50, _⟩ => ⟨S1200000x64, .f32⟩
  | .hbm, ⟨51, _⟩ => ⟨S_, .f32⟩
  | .hbm, ⟨52, _⟩ => ⟨S100000x64, .f32⟩
  | .hbm, ⟨53, _⟩ => ⟨S1200000x1, .i32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1200000, .i32⟩
  | .hbm, ⟨66, _⟩ => ⟨S1200000, .i1⟩
  | .hbm, ⟨67, _⟩ => ⟨S_, .i32⟩
  | .hbm, ⟨68, _⟩ => ⟨S1200000, .i32⟩
  | .hbm, ⟨69, _⟩ => ⟨S1200000, .i32⟩
  | .hbm, ⟨70, _⟩ => ⟨S1200000, .i32⟩
  | .hbm, ⟨71, _⟩ => ⟨S1200000x1, .i32⟩
  | .hbm, ⟨72, _⟩ => ⟨S1200000x64, .f32⟩
  | .hbm, ⟨73, _⟩ => ⟨S_, .f32⟩
  | .hbm, ⟨74, _⟩ => ⟨S100000x64, .f32⟩
  | .hbm, ⟨75, _⟩ => ⟨S1200000x1, .i32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S128x64, .f32⟩
  | .hbm, ⟨88, _⟩ => ⟨S100000x1, .i32⟩
  | .hbm, ⟨89, _⟩ => ⟨S128x64, .f32⟩
  | .hbm, ⟨90, _⟩ => ⟨S128x64, .f32⟩
  | .hbm, ⟨91, _⟩ => ⟨S1x64, .f32⟩
  | .hbm, ⟨92, _⟩ => ⟨S128x64, .f32⟩
  | .hbm, ⟨93, _⟩ => ⟨S128x64, .f32⟩
  | .hbm, ⟨94, _⟩ => ⟨S_, .f32⟩
  | .hbm, ⟨95, _⟩ => ⟨S128x64, .f32⟩
  | .hbm, ⟨96, _⟩ => ⟨S128x64, .f32⟩
  | .hbm, ⟨97, _⟩ => ⟨S128x3, .f32⟩
  | .hbm, ⟨98, _⟩ => ⟨S1x3, .f32⟩
  | .hbm, ⟨99, _⟩ => ⟨S128x3, .f32⟩
  | .hbm, ⟨100, _⟩ => ⟨S128x3, .f32⟩
  | .hbm, ⟨101, _⟩ => ⟨S_, .f32⟩
  | .hbm, ⟨102, _⟩ => ⟨S128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128x1, .f32⟩
  | .hbm, ⟨107, _⟩ => ⟨S128x3, .f32⟩
  | .hbm, ⟨108, _⟩ => ⟨S128x3, .f32⟩
  | .hbm, ⟨109, _⟩ => ⟨S128x3, .f32⟩
  | .hbm, ⟨110, _⟩ => ⟨S_, .f32⟩
  | .hbm, ⟨111, _⟩ => ⟨S128, .f32⟩
  | .hbm, ⟨112, _⟩ => ⟨S128x1, .f32⟩
  | .hbm, ⟨113, _⟩ => ⟨S128x1, .f32⟩
  | .hbm, ⟨114, _⟩ => ⟨S128x3, .f32⟩
  | .hbm, ⟨115, _⟩ => ⟨S128x3, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_cst : Ref sig .tc := ⟨.hbm, 83, rfl⟩
abbrev main_call2_v0 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_call3_cst : Ref sig .tc := ⟨.hbm, 94, rfl⟩
abbrev main_call3_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call4_cst : Ref sig .tc := ⟨.hbm, 101, rfl⟩
abbrev main_call4_v0 : Ref sig .tc := ⟨.hbm, 102, rfl⟩
abbrev main_call4_cst_0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_cst_1 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_v67 : Ref sig .tc := ⟨.hbm, 115, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S1x64_S128x64_0_1 : S1x64.BroadcastsInDim S128x64 (![0, 1] : Fin 2 → Fin S128x64.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  reducesTo_S128x3_S128_d1 : S128x3.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x3_0_1 : S128x1.BroadcastsInDim S128x3 (![0, 1] : Fin 2 → Fin S128x3.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x64_S128x64_1_0_0_1_n_n_wf : DotDims.WF S128x64 S64x64 S128x64 [1] [0] [0] [1] [] []
  dot_S128x64_S64x3_S128x3_1_0_0_1_n_n_wf : DotDims.WF S128x64 S64x3 S128x3 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x3_S128x3_1_0_0_1_n_n : DotDims S128x64 S64x3 S128x3 where
  lhsContracting := [1]
  rhsContracting := [0]
  lhsNonContracting := [0]
  rhsNonContracting := [1]
  lhsBatch := []
  rhsBatch := []
  wf := dot_S128x64_S64x3_S128x3_1_0_0_1_n_n_wf

class Facts : Prop extends Facts₀ where

variable [Facts]
-- ==== Proof.Carry.lean ====
/-
  Buffers that nothing has written yet still hold what they held earlier.

  The kernel program runs as five stretches of host operations, each followed by a pipelined region. A stretch writes
  only the results of its own operations; a region writes only its output array and returns each of its input arrays
  as it entered. So an argument of the program, read at the boundary where it is first used, still holds its launch
  contents: walking back from that boundary, every stretch leaves it alone (it is no operation's result) and every
  region either does not have it among its arrays or has it as a read-only input. In the same way the output of one
  region is still in place after the stretch that follows it.
-/
import proofs.«413460_j32590211842293_1_alg».proof.Proof.Gen.KernelIdeal.Frame
import Idealize.ShloMosaic.PureOps.Ideal

set_option maxRecDepth 16384

noncomputable section

namespace Cert.KernelIdeal.Gen

open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-! ## Arguments, back to the launch memory -/

/-- At launch a buffer holds the launch memory. -/
theorem W0_main_arg1 (c : Dev nD) : W0 (F := Ideal) m ρ c (Proc.devRef .tc main_arg1) = m ((c : Thread nD τ).loc main_arg1) :=
  rfl
theorem W0_main_arg4 (c : Dev nD) : W0 (F := Ideal) m ρ c (Proc.devRef .tc main_arg4) = m ((c : Thread nD τ).loc main_arg4) :=
  rfl
/-- The first layer's feature array and its two weight matrices, at the first region's entry: the first stretch
    writes none of them. -/
theorem W1_main_arg0 (c : Dev nD) : W1 (F := Ideal) m ρ c (Proc.devRef .tc main_arg0) = m ((c : Thread nD τ).loc main_arg0) :=
  calc W1 (F := Ideal) m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_main_arg3 (c : Dev nD) : W1 (F := Ideal) m ρ c (Proc.devRef .tc main_arg3) = m ((c : Thread nD τ).loc main_arg3) :=
  calc W1 (F := Ideal) m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W1_main_arg5 (c : Dev nD) : W1 (F := Ideal) m ρ c (Proc.devRef .tc main_arg5) = m ((c : Thread nD τ).loc main_arg5) :=
  calc W1 (F := Ideal) m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- The second layer's bias at the first region's exit: the region does not have it among its arrays. -/
theorem W2_main_arg7 (c : Dev nD) : W2 (F := Ideal) m ρ c (Proc.devRef .tc main_arg7) = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- The second layer's two weight matrices at the second region's entry. -/
theorem W3_main_arg6 (c : Dev nD) : W3 (F := Ideal) m ρ c (Proc.devRef .tc main_arg6) = m ((c : Thread nD τ).loc main_arg6) :=
  calc W3 (F := Ideal) m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W3_main_arg8 (c : Dev nD) : W3 (F := Ideal) m ρ c (Proc.devRef .tc main_arg8) = m ((c : Thread nD τ).loc main_arg8) :=
  calc W3 (F := Ideal) m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- The third layer's bias at the second region's exit. -/
theorem W4_main_arg10 (c : Dev nD) : W4 (F := Ideal) m ρ c (Proc.devRef .tc main_arg10) = m ((c : Thread nD τ).loc main_arg10) :=
  calc W4 (F := Ideal) m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- The third layer's two weight matrices at the third region's entry. -/
theorem W5_main_arg9 (c : Dev nD) : W5 (F := Ideal) m ρ c (Proc.devRef .tc main_arg9) = m ((c : Thread nD τ).loc main_arg9) :=
  calc W5 (F := Ideal) m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W5_main_arg11 (c : Dev nD) : W5 (F := Ideal) m ρ c (Proc.devRef .tc main_arg11) = m ((c : Thread nD τ).loc main_arg11) :=
  calc W5 (F := Ideal) m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- The graph words at the third region's exit. -/
theorem W6_main_arg2 (c : Dev nD) : W6 (F := Ideal) m ρ c (Proc.devRef .tc main_arg2) = m ((c : Thread nD τ).loc main_arg2) :=
  calc W6 (F := Ideal) m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- The head's two biases at the pooling region's exit. -/
theorem W8_main_arg13 (c : Dev nD) : W8 (F := Ideal) m ρ c (Proc.devRef .tc main_arg13) = m ((c : Thread nD τ).loc main_arg13) :=
  calc W8 (F := Ideal) m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W8_main_arg15 (c : Dev nD) : W8 (F := Ideal) m ρ c (Proc.devRef .tc main_arg15) = m ((c : Thread nD τ).loc main_arg15) :=
  calc W8 (F := Ideal) m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
/-- The head's two weight matrices at the last region's entry. -/
theorem W9_main_arg12 (c : Dev nD) : W9 (F := Ideal) m ρ c (Proc.devRef .tc main_arg12) = m ((c : Thread nD τ).loc main_arg12) :=
  calc W9 (F := Ideal) m ρ c (Proc.devRef .tc main_arg12)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W9_main_arg14 (c : Dev nD) : W9 (F := Ideal) m ρ c (Proc.devRef .tc main_arg14) = m ((c : Thread nD τ).loc main_arg14) :=
  calc W9 (F := Ideal) m ρ c (Proc.devRef .tc main_arg14)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-! ## A region's output across the next stretch

The stretch after a region reads the region's output (to look up its rows) and writes other buffers only. -/

theorem W3_main_v15 (c : Dev nD) : W3 (F := Ideal) m ρ c (Proc.devRef .tc main_v15) = W2 m ρ c (Proc.devRef .tc main_v15) :=
  StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W5_main_v27 (c : Dev nD) : W5 (F := Ideal) m ρ c (Proc.devRef .tc main_v27) = W4 m ρ c (Proc.devRef .tc main_v27) :=
  StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W7_main_v39 (c : Dev nD) : W7 (F := Ideal) m ρ c (Proc.devRef .tc main_v39) = W6 m ρ c (Proc.devRef .tc main_v39) :=
  StableHlo.after_of_forall_not_mem (b := Proc.devRef .tc main_v39) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W9_main_v41 (c : Dev nD) : W9 (F := Ideal) m ρ c (Proc.devRef .tc main_v41) = W8 m ρ c (Proc.devRef .tc main_v41) :=
  StableHlo.after_of_forall_not_mem (b := Proc.devRef .tc main_v41) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Gen

end
-- ==== Proof.Spec.lean ====
/-
  What the network computes, index by index, on the extended reals.

  A graph-convolution layer takes node features `x : [100000, 64]`, the neighbour sums `agg : [100000, 64]`,
  two weight matrices and a bias, and returns at node `n`, channel `j`
      max ((Σ_k agg[n,k] · Wr[k,j] + Σ_k x[n,k] · Ws[k,j]) + br[j], 0).
  Adding the bias before or after the second product is the same sum: addition on the extended reals is
  commutative and associative (no finiteness is used).

  The pooled table `[128, 64]` has at graph `g`, channel `j` the sum of `h[n, j]` over the nodes `n` whose graph
  word, read as a signed integer, is `g`; a node whose word names no graph in `[0, 128)` is in no sum.

  The head maps a pooled row through a hidden layer with a rectifier and an output layer to three logits and
  returns `z − log Σ exp z` with `z` the logits minus their row maximum.
-/
import Idealize.ShloMosaic.Lib.ValueIdx
import Idealize.ShloMosaic.PureOps.Ideal
import Idealize.ShloMosaic.PureOps.Ideal.Laws

noncomputable section

namespace Cert.Gnn

open Idealize.ShloMosaic Idealize.ShloMosaic.ValueIdx

/-- The float zero, one and minus infinity as the programs write them. -/
abbrev zeroF : Ideal .f32 := Ideal.ofBits .f32 0x00000000#32
abbrev oneF : Ideal .f32 := Ideal.ofBits .f32 0x3F800000#32
abbrev negInfF : Ideal .f32 := Ideal.ofBits .f32 0xFF800000#32

/-- One graph-convolution layer at node `n`, channel `j`, with the bias added last. -/
def layerAt (x agg : FVec Ideal ⟨2, ![100000, 64]⟩ .f32) (Wr : FVec Ideal ⟨2, ![64, 64]⟩ .f32)
    (br : FVec Ideal ⟨1, ![64]⟩ .f32) (Ws : FVec Ideal ⟨2, ![64, 64]⟩ .f32) (n : Fin 100000) (j : Fin 64) : Ideal .f32 :=
  max ((∑ k : Fin 64, agg (ix2 n k) * Wr (ix2 k j) + ∑ k : Fin 64, x (ix2 n k) * Ws (ix2 k j)) + br (ix1 j)) zeroF

/-- The layer as an array. -/
def layerVal (x agg : FVec Ideal ⟨2, ![100000, 64]⟩ .f32) (Wr : FVec Ideal ⟨2, ![64, 64]⟩ .f32)
    (br : FVec Ideal ⟨1, ![64]⟩ .f32) (Ws : FVec Ideal ⟨2, ![64, 64]⟩ .f32) : FVec Ideal ⟨2, ![100000, 64]⟩ .f32 :=
  fun i => layerAt x agg Wr br Ws (i 0) (i 1)

theorem layerVal_ix2 (x agg : FVec Ideal ⟨2, ![100000, 64]⟩ .f32) (Wr : FVec Ideal ⟨2, ![64, 64]⟩ .f32)
    (br : FVec Ideal ⟨1, ![64]⟩ .f32) (Ws : FVec Ideal ⟨2, ![64, 64]⟩ .f32) (n : Fin 100000) (j : Fin 64) :
    layerVal x agg Wr br Ws (ix2 n j) = layerAt x agg Wr br Ws n j := rfl

/-- Adding the bias between the two products gives the same entry. -/
theorem layerAt_bias_between (x agg : FVec Ideal ⟨2, ![100000, 64]⟩ .f32) (Wr : FVec Ideal ⟨2, ![64, 64]⟩ .f32)
    (br : FVec Ideal ⟨1, ![64]⟩ .f32) (Ws : FVec Ideal ⟨2, ![64, 64]⟩ .f32) (n : Fin 100000) (j : Fin 64) :
    max ((∑ k : Fin 64, agg (ix2 n k) * Wr (ix2 k j) + br (ix1 j)) + ∑ k : Fin 64, x (ix2 n k) * Ws (ix2 k j)) zeroF
      = layerAt x agg Wr br Ws n j := by
  unfold layerAt
  rw [add_right_comm]

/-- The pooled table at graph `g`, channel `j`: the zero the table starts from plus the rows of the nodes whose
    word names `g`. -/
def poolAt (h : FVec Ideal ⟨2, ![100000, 64]⟩ .f32) (batch : IVec ⟨1, ![100000]⟩ 32) (g : Fin 128) (j : Fin 64) : Ideal .f32 :=
  zeroF + ∑ n ∈ Finset.univ.filter (fun n : Fin 100000 => (batch (ix1 n)).toInt = (g.val : ℤ)), h (ix2 n j)

def poolVal (h : FVec Ideal ⟨2, ![100000, 64]⟩ .f32) (batch : IVec ⟨1, ![100000]⟩ 32) : FVec Ideal ⟨2, ![128, 64]⟩ .f32 :=
  fun i => poolAt h batch (i 0) (i 1)

theorem poolVal_ix2 (h : FVec Ideal ⟨2, ![100000, 64]⟩ .f32) (batch : IVec ⟨1, ![100000]⟩ 32) (g : Fin 128) (j : Fin 64) :
    poolVal h batch (ix2 g j) = poolAt h batch g j := rfl

/-- The hidden layer of the head at graph `g`, unit `j`. -/
def hiddenAt (p : FVec Ideal ⟨2, ![128, 64]⟩ .f32) (W1 : FVec Ideal ⟨2, ![64, 64]⟩ .f32) (b1 : FVec Ideal ⟨1, ![64]⟩ .f32)
    (g : Fin 128) (j : Fin 64) : Ideal .f32 :=
  max (∑ k : Fin 64, p (ix2 g k) * W1 (ix2 k j) + b1 (ix1 j)) zeroF

/-- The logits at graph `g`, class `c`. -/
def logitAt (p : FVec Ideal ⟨2, ![128, 64]⟩ .f32) (W1 : FVec Ideal ⟨2, ![64, 64]⟩ .f32) (b1 : FVec Ideal ⟨1, ![64]⟩ .f32)
    (W2 : FVec Ideal ⟨2, ![64, 3]⟩ .f32) (b2 : FVec Ideal ⟨1, ![3]⟩ .f32) (g : Fin 128) (c : Fin 3) : Ideal .f32 :=
  ∑ k : Fin 64, hiddenAt p W1 b1 g k * W2 (ix2 k c) + b2 (ix1 c)

end Cert.Gnn

end
-- ==== Proof.Nbr.lean ====
/-
  The neighbour sums as one function of a feature table and the edge array.

  Row 0 of the edge array holds each edge's source word, row 1 its destination word. A negative source word has
  100000 added to it; the table's row that word then names (the word read as a signed integer and clamped into
  [0, 99999]: a word still negative reads row 0, a word past the table its last row) is looked up for every edge, and the looked-up rows are added into a table of zeros at the rows the destination words name (read signed,
  not clamped: a word that names no row adds nowhere). The kernel program applies exactly these operations before each
  of its three layers; here they are named once, and what the first stretch of host operations leaves in the
  neighbour-sum buffer is this function of the launch contents of the feature and edge arrays.
-/
import proofs.«413460_j32590211842293_1_alg».proof.Proof.Gen.KernelIdeal.Frame
import proofs.«413460_j32590211842293_1_alg».proof.Proof.Spec
import Idealize.ShloMosaic.Lib.StableHlo.Run

set_option maxRecDepth 16384

noncomputable section

namespace Cert.KernelIdeal.Gen

open Idealize.ShloMosaic Idealize.ShloMosaic.TcCoe Idealize.ShloMosaic.Tactic Idealize.SL.Sem Idealize.ShloMosaic.StableHlo

/-- The neighbour sums of the table `x` along the edges `e`. -/
def nbrK (x : FVec Ideal S100000x64 .f32) (e : IVec S2x1200000 32) : FVec Ideal S100000x64 .f32 :=
  let s : IVec S1200000 32 :=
    shapeCast S1200000 (extractStridedSlice S1x1200000 ![0, 0] e slices_S2x1200000_S1x1200000_0_0) shapeCasts_S1x1200000_S1200000
  let d : IVec S1200000 32 :=
    shapeCast S1200000 (extractStridedSlice S1x1200000 ![1, 0] e slices_S2x1200000_S1x1200000_1_0) shapeCasts_S1x1200000_S1200000
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 x
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32)))
          s)))

variable (m : (ℓ : Loc nD τ sig) → Buf (Elt Ideal) ℓ) (ρ : Dev nD → PrngReg)

/-- After the first stretch of host operations the neighbour-sum buffer of layer 1 holds the neighbour sums of the
    launched feature array along the launched edge array. -/
theorem W1_main_v13 (c : Dev nD) :
    (W1 (F := Ideal) m ρ c (Proc.devRef .tc main_v13) : FVec Ideal S100000x64 .f32)
      = nbrK (W0 (F := Ideal) m ρ c (Proc.devRef .tc main_arg0)) (W0 (F := Ideal) m ρ c (Proc.devRef .tc main_arg1)) := by
  show StableHlo.after hostOps0 (W0 m ρ c) (Proc.devRef .tc main_v13) = _
  after_results
  rfl

/-- The source words after the first stretch: row 0 of the launched edge array as a vector. -/
theorem W1_main_v1 (c : Dev nD) :
    (W1 (F := Ideal) m ρ c (Proc.devRef .tc main_v1) : IVec S1200000 32)
      = shapeCast S1200000 (extractStridedSlice S1x1200000 ![0, 0] (W0 (F := Ideal) m ρ c (Proc.devRef .tc main_arg1))
          slices_S2x1200000_S1x1200000_0_0) shapeCasts_S1x1200000_S1200000 := by
  show StableHlo.after hostOps0 (W0 m ρ c) (Proc.devRef .tc main_v1) = _
  after_results
  rfl

/-- The destination words after the first stretch: row 1 of the launched edge array as a vector. -/
theorem W1_main_v3 (c : Dev nD) :
    (W1 (F := Ideal) m ρ c (Proc.devRef .tc main_v3) : IVec S1200000 32)
      = shapeCast S1200000 (extractStridedSlice S1x1200000 ![1, 0] (W0 (F := Ideal) m ρ c (Proc.devRef .tc main_arg1))
          slices_S2x1200000_S1x1200000_1_0) shapeCasts_S1x1200000_S1200000 := by
  show StableHlo.after hostOps0 (W0 m ρ c) (Proc.devRef .tc main_v3) = _
  after_results
  rfl

/-- The first layer's region writes neither word vector. -/
theorem W2_main_v1 (c : Dev nD) : W2 (F := Ideal) m ρ c (Proc.devRef .tc main_v1) = W1 m ρ c (Proc.devRef .tc main_v1) :=
  W2_of_ne m ρ c main_v1 (by decide)
theorem W2_main_v3 (c : Dev nD) : W2 (F := Ideal) m ρ c (Proc.devRef .tc main_v3) = W1 m ρ c (Proc.devRef .tc main_v3) :=
  W2_of_ne m ρ c main_v3 (by decide)

/-- After the second stretch of host operations the neighbour-sum buffer of layer 2 holds the neighbour sums of the
    first layer's output (as region 0 left it) along the launched edge array: the stretch reads the word vectors the
    first stretch made, which nothing has written since. -/
theorem W3_main_v25 (c : Dev nD) :
    (W3 (F := Ideal) m ρ c (Proc.devRef .tc main_v25) : FVec Ideal S100000x64 .f32)
      = nbrK (W2 (F := Ideal) m ρ c (Proc.devRef .tc main_v15)) (W0 (F := Ideal) m ρ c (Proc.devRef .tc main_arg1)) := by
  show StableHlo.after hostOps1 (W2 m ρ c) (Proc.devRef .tc main_v25) = _
  after_results
  rw [W2_main_v1 m ρ c, W2_main_v3 m ρ c, W1_main_v1 m ρ c, W1_main_v3 m ρ c]
  rfl

/-- The second stretch writes neither word vector, and neither does the second layer's region. -/
theorem W3_main_v1 (c : Dev nD) : W3 (F := Ideal) m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_main_v3 (c : Dev nD) : W3 (F := Ideal) m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W4_main_v1 (c : Dev nD) : W4 (F := Ideal) m ρ c (Proc.devRef .tc main_v1) = W3 m ρ c (Proc.devRef .tc main_v1) :=
  W4_of_ne m ρ c main_v1 (by decide)
theorem W4_main_v3 (c : Dev nD) : W4 (F := Ideal) m ρ c (Proc.devRef .tc main_v3) = W3 m ρ c (Proc.devRef .tc main_v3) :=
  W4_of_ne m ρ c main_v3 (by decide)

/-- After the third stretch the neighbour-sum buffer of layer 3 holds the neighbour sums of the second layer's output
    (as region 1 left it) along the launched edge array. -/
theorem W5_main_v37 (c : Dev nD) :
    (W5 (F := Ideal) m ρ c (Proc.devRef .tc main_v37) : FVec Ideal S100000x64 .f32)
      = nbrK (W4 (F := Ideal) m ρ c (Proc.devRef .tc main_v27)) (W0 (F := Ideal) m ρ c (Proc.devRef .tc main_arg1)) := by
  show StableHlo.after hostOps2 (W4 m ρ c) (Proc.devRef .tc main_v37) = _
  after_results
  rw [W4_main_v1 m ρ c, W4_main_v3 m ρ c, W3_main_v1 m ρ c, W3_main_v3 m ρ c,
    W2_main_v1 m ρ c, W2_main_v3 m ρ c, W1_main_v1 m ρ c, W1_main_v3 m ρ c]
  rfl

end Cert.KernelIdeal.Gen

end
-- ==== Proof.LibMatmulRows.lean ====
/-
  A matrix product into a zero accumulator, read at an index, at the exact values.

  Two arrangements of the dimension numbers, over any extents. ROWS BY COLUMNS: `[R, K] · [K, C]`, the left
  operand contracted on its second axis and the right on its first; entry `(a, b)` is the sum over `k` of
  `l[a, k] · r[k, b]`. COLUMNS BY COLUMNS: `[K, G]ᵀ · [K, C]`, both operands contracted on their FIRST axis (a
  product with the left operand transposed, written without a transpose); entry `(g, f)` is the sum over `k` of
  `l[k, g] · r[k, f]`. In both the accumulator is the zero splat, so nothing else is added.
-/
import Idealize.ShloMosaic.Lib.ValueIdx
import Idealize.ShloMosaic.PureOps.Ideal
import Idealize.ShloMosaic.PureOps.Ideal.Laws

noncomputable section

namespace Cert.Gcn.Lib

open Idealize.ShloMosaic Idealize.ShloMosaic.ValueIdx

section RowsByColumns
variable {R K C : ℕ}

/-- The dimension numbers of `[R, K] · [K, C]`. -/
abbrev rowsDims (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

variable (wf : DotDims.WF ⟨2, ![R, K]⟩ ⟨2, ![K, C]⟩ ⟨2, ![R, C]⟩ [1] [0] [0] [1] [] [])

theorem rows_lhs_0 (i : (⟨2, ![R, C]⟩ : Shape).Idx) (q : (rowsDims wf).contr.Idx) :
    ((rowsDims wf).lhsIdx i q 0).val = (i 0).val := by
  unfold DotDims.lhsIdx
  rw [dif_neg (show ¬(0 : Fin 2) ∈ (rowsDims wf).lhsBatch from List.not_mem_nil),
    dif_pos (show (0 : Fin 2) ∈ (rowsDims wf).lhsNonContracting from List.mem_singleton.mpr rfl)]
  rfl
theorem rows_lhs_1 (i : (⟨2, ![R, C]⟩ : Shape).Idx) (q : (rowsDims wf).contr.Idx) :
    ((rowsDims wf).lhsIdx i q 1).val = (q ⟨0, Nat.one_pos⟩).val :=
  (rowsDims wf).lhsIdx_val_of_single rfl i q
theorem rows_rhs_0 (i : (⟨2, ![R, C]⟩ : Shape).Idx) (q : (rowsDims wf).contr.Idx) :
    ((rowsDims wf).rhsIdx i q 0).val = (q ⟨0, Nat.one_pos⟩).val :=
  (rowsDims wf).rhsIdx_val_of_single rfl i q
theorem rows_rhs_1 (i : (⟨2, ![R, C]⟩ : Shape).Idx) (q : (rowsDims wf).contr.Idx) :
    ((rowsDims wf).rhsIdx i q 1).val = (i 1).val := by
  unfold DotDims.rhsIdx
  rw [dif_neg (show ¬(1 : Fin 2) ∈ (rowsDims wf).rhsBatch from List.not_mem_nil),
    dif_pos (show (1 : Fin 2) ∈ (rowsDims wf).rhsNonContracting from List.mem_singleton.mpr rfl)]
  rfl

/-- ROWS BY COLUMNS, into the zero splat, read at `(a, b)`. -/
theorem matmul_rows_apply {φ₁ φ₂ : FTy} (d : DotDims ⟨2, ![R, K]⟩ ⟨2, ![K, C]⟩ ⟨2, ![R, C]⟩) (hd : d = rowsDims wf)
    (prec : Option ContractPrecision) (l : FVec Ideal ⟨2, ![R, K]⟩ φ₁) (r : FVec Ideal ⟨2, ![K, C]⟩ φ₂) (a : Fin R) (b : Fin C) :
    FloatOps.matmul d prec l r (constant ⟨2, ![R, C]⟩ .f32 0x00000000#32) (ix2 a b) = ∑ k : Fin K, l (ix2 a k) * r (ix2 k b) := by
  subst hd
  rw [Ideal.matmul_constant_zero_apply, ← Equiv.sum_comp (contrEquiv1 (rowsDims wf) K rfl rfl).symm]
  refine Finset.sum_congr rfl fun k _ => ?_
  have hk := contrEquiv1_symm_val (rowsDims wf) K rfl rfl k
  have el : (rowsDims wf).lhsIdx (ix2 a b) ((contrEquiv1 (rowsDims wf) K rfl rfl).symm k) = ix2 a k :=
    funext fun ax => Fin.ext (by
      match ax with
      | ⟨0, _⟩ => exact rows_lhs_0 wf _ _
      | ⟨1, _⟩ => exact (rows_lhs_1 wf _ _).trans hk)
  have er : (rowsDims wf).rhsIdx (ix2 a b) ((contrEquiv1 (rowsDims wf) K rfl rfl).symm k) = ix2 k b :=
    funext fun ax => Fin.ext (by
      match ax with
      | ⟨0, _⟩ => exact (rows_rhs_0 wf _ _).trans hk
      | ⟨1, _⟩ => exact rows_rhs_1 wf _ _)
  rw [el, er]

end RowsByColumns

section ColumnsByColumns
variable {K G C : ℕ}

/-- The dimension numbers of `[K, G]ᵀ · [K, C]`: both operands contracted on their first axis. -/
abbrev colsDims (wf : DotDims.WF ⟨2, ![K, G]⟩ ⟨2, ![K, C]⟩ ⟨2, ![G, C]⟩ [0] [0] [1] [1] [] []) :
    DotDims ⟨2, ![K, G]⟩ ⟨2, ![K, C]⟩ ⟨2, ![G, C]⟩ := ⟨[0], [0], [1], [1], [], [], wf⟩

variable (wf : DotDims.WF ⟨2, ![K, G]⟩ ⟨2, ![K, C]⟩ ⟨2, ![G, C]⟩ [0] [0] [1] [1] [] [])

theorem cols_lhs_0 (i : (⟨2, ![G, C]⟩ : Shape).Idx) (q : (colsDims wf).contr.Idx) :
    ((colsDims wf).lhsIdx i q 0).val = (q ⟨0, Nat.one_pos⟩).val :=
  (colsDims wf).lhsIdx_val_of_single rfl i q
theorem cols_lhs_1 (i : (⟨2, ![G, C]⟩ : Shape).Idx) (q : (colsDims wf).contr.Idx) :
    ((colsDims wf).lhsIdx i q 1).val = (i 0).val := by
  unfold DotDims.lhsIdx
  rw [dif_neg (show ¬(1 : Fin 2) ∈ (colsDims wf).lhsBatch from List.not_mem_nil),
    dif_pos (show (1 : Fin 2) ∈ (colsDims wf).lhsNonContracting from List.mem_singleton.mpr rfl)]
  rfl
theorem cols_rhs_0 (i : (⟨2, ![G, C]⟩ : Shape).Idx) (q : (colsDims wf).contr.Idx) :
    ((colsDims wf).rhsIdx i q 0).val = (q ⟨0, Nat.one_pos⟩).val :=
  (colsDims wf).rhsIdx_val_of_single rfl i q
theorem cols_rhs_1 (i : (⟨2, ![G, C]⟩ : Shape).Idx) (q : (colsDims wf).contr.Idx) :
    ((colsDims wf).rhsIdx i q 1).val = (i 1).val := by
  unfold DotDims.rhsIdx
  rw [dif_neg (show ¬(1 : Fin 2) ∈ (colsDims wf).rhsBatch from List.not_mem_nil),
    dif_pos (show (1 : Fin 2) ∈ (colsDims wf).rhsNonContracting from List.mem_singleton.mpr rfl)]
  rfl

/-- COLUMNS BY COLUMNS, into the zero splat, read at `(g, f)`. -/
theorem matmul_cols_apply {φ₁ φ₂ : FTy} (d : DotDims ⟨2, ![K, G]⟩ ⟨2, ![K, C]⟩ ⟨2, ![G, C]⟩) (hd : d = colsDims wf)
    (prec : Option ContractPrecision) (l : FVec Ideal ⟨2, ![K, G]⟩ φ₁) (r : FVec Ideal ⟨2, ![K, C]⟩ φ₂) (g : Fin G) (f : Fin C) :
    FloatOps.matmul d prec l r (constant ⟨2, ![G, C]⟩ .f32 0x00000000#32) (ix2 g f) = ∑ k : Fin K, l (ix2 k g) * r (ix2 k f) := by
  subst hd
  rw [Ideal.matmul_constant_zero_apply, ← Equiv.sum_comp (contrEquiv1 (colsDims wf) K rfl rfl).symm]
  refine Finset.sum_congr rfl fun k _ => ?_
  have hk := contrEquiv1_symm_val (colsDims wf) K rfl rfl k
  have el : (colsDims wf).lhsIdx (ix2 g f) ((contrEquiv1 (colsDims wf) K rfl rfl).symm k) = ix2 k g :=
    funext fun ax => Fin.ext (by
      match ax with
      | ⟨0, _⟩ => exact (cols_lhs_0 wf _ _).trans hk
      | ⟨1, _⟩ => exact cols_lhs_1 wf _ _)
  have er : (colsDims wf).rhsIdx (ix2 g f) ((contrEquiv1 (colsDims wf) K rfl rfl).symm k) = ix2 k f :=
    funext fun ax => Fin.ext (by
      match ax with
      | ⟨0, _⟩ => exact (cols_rhs_0 wf _ _).trans hk
      | ⟨1, _⟩ => exact cols_rhs_1 wf _ _)
  rw [el, er]

end ColumnsByColumns

end Cert.Gcn.Lib

end
-- ==== Proof.Layer0.lean ====
/-
  The first graph-convolution call, read as an array.

  The call walks the 100000 rows in 20 blocks of 5000. At a block it holds 5000 rows of the features and of the
  neighbour sums, the two whole weight matrices and the bias as one row `[1, 64]`; it multiplies the neighbour sums by
  the first matrix and the features by the second, each product a sum over the 64 input channels into a zero
  accumulator, adds the two, adds the bias row to every row, and takes the maximum with zero. (The changes of float
  format in front of the products are the identity on the extended reals.) Row `r` of the array lies in block
  `r / 5000` at position `r % 5000`, every row lies in exactly one block, and each block writes back its own
  5000 rows; so after the last block the array holds, at row `n` and channel `j`,
      max ((Σ_k agg[n,k] · Wr[k,j] + Σ_k x[n,k] · Ws[k,j]) + b[0,j], 0).
-/
import proofs.«413460_j32590211842293_1_alg».proof.Proof.Gen.KernelIdeal.Frame
import proofs.«413460_j32590211842293_1_alg».proof.Proof.Spec
import proofs.«413460_j32590211842293_1_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

namespace Cert.Gnn.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the call finds -/

/-- The node features `[100000, 64]`. -/
abbrev xArr (c : Dev nD) : FVec Ideal ⟨2, ![100000, 64]⟩ .f32 := V c (Pipeline.arrRef spec0 0)
/-- The neighbour sums `[100000, 64]`. -/
abbrev aggArr (c : Dev nD) : FVec Ideal ⟨2, ![100000, 64]⟩ .f32 := V c (Pipeline.arrRef spec0 1)
/-- The matrix applied to the neighbour sums. -/
abbrev wrArr (c : Dev nD) : FVec Ideal ⟨2, ![64, 64]⟩ .f32 := V c (Pipeline.arrRef spec0 2)
/-- The bias as one row `[1, 64]`. -/
abbrev biasArr (c : Dev nD) : FVec Ideal ⟨2, ![1, 64]⟩ .f32 := V c (Pipeline.arrRef spec0 3)
/-- The matrix applied to the features. -/
abbrev wsArr (c : Dev nD) : FVec Ideal ⟨2, ![64, 64]⟩ .f32 := V c (Pipeline.arrRef spec0 4)

theorem xArr_eq (c : Dev nD) : xArr V c = V c (Pipeline.arrRef spec0 0) := rfl
theorem aggArr_eq (c : Dev nD) : aggArr V c = V c (Pipeline.arrRef spec0 1) := rfl
theorem wrArr_eq (c : Dev nD) : wrArr V c = V c (Pipeline.arrRef spec0 2) := rfl
theorem biasArr_eq (c : Dev nD) : biasArr V c = V c (Pipeline.arrRef spec0 3) := rfl
theorem wsArr_eq (c : Dev nD) : wsArr V c = V c (Pipeline.arrRef spec0 4) := rfl

/-! ## The block's arithmetic at an index -/

/-- At row `p`, channel `q` of a block: the two products are sums over the 64 input channels, the bias row is read at
    its one row, and the maximum is taken with zero. -/
theorem pay_apply (x a : FVec Ideal ⟨2, ![5000, 64]⟩ .f32) (wr ws : FVec Ideal ⟨2, ![64, 64]⟩ .f32)
    (b : FVec Ideal ⟨2, ![1, 64]⟩ .f32) (p : Fin 5000) (q : Fin 64) :
    (k0_pay1 (F := Ideal) x a wr ws b) (ix2 p q)
      = max ((∑ k : Fin 64, a (ix2 p k) * wr (ix2 k q) + ∑ k : Fin 64, x (ix2 p k) * ws (ix2 k q)) + b (ix2 (0 : Fin 1) q)) zeroF := by
  have hA := Cert.Gcn.Lib.matmul_rows_apply dot_S5000x64_S64x64_S5000x64_1_0_0_1_n_n_wf dot_S5000x64_S64x64_S5000x64_1_0_0_1_n_n rfl none
    (truncf .bf16 a bitsLt_bf16_f32) (truncf .bf16 wr bitsLt_bf16_f32) p q
  have hX := Cert.Gcn.Lib.matmul_rows_apply dot_S5000x64_S64x64_S5000x64_1_0_0_1_n_n_wf dot_S5000x64_S64x64_S5000x64_1_0_0_1_n_n rfl none
    (truncf .bf16 x bitsLt_bf16_f32) (truncf .bf16 ws bitsLt_bf16_f32) p q
  have hB := broadcastTo_1b_ab_apply b broadcasts_S1x64_S5000x64 p q
  unfold k0_pay1
  simp only [maximumf_apply, addf_apply, broadcast_apply, shapeCast_self]
  exact congrArg₂ max (congrArg₂ (· + ·) (congrArg₂ (· + ·) hA hX) hB) rfl

/-! ## Which rows a block holds -/

theorem hz : (![0, 0] : Fin 2 → Nat) = fun _ => 0 := funext fun a => by fin_cases a <;> rfl

/-- The block indices over the 20 points: the row blocks of the features, the neighbour sums and the result are the
    point's own, the column block is the only one; the matrices and the bias are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The blocks at point `t`, at their literal types. -/
abbrev xBlk (c : Dev nD) (t : Fin cfg0.N) : FVec Ideal ⟨2, ![5000, 64]⟩ .f32 := iblk0 V c 0 t
abbrev aggBlk (c : Dev nD) (t : Fin cfg0.N) : FVec Ideal ⟨2, ![5000, 64]⟩ .f32 := iblk0 V c 1 t
abbrev wrBlk (c : Dev nD) (t : Fin cfg0.N) : FVec Ideal ⟨2, ![64, 64]⟩ .f32 := iblk0 V c 2 t
abbrev biasBlk (c : Dev nD) (t : Fin cfg0.N) : FVec Ideal ⟨2, ![1, 64]⟩ .f32 := iblk0 V c 3 t
abbrev wsBlk (c : Dev nD) (t : Fin cfg0.N) : FVec Ideal ⟨2, ![64, 64]⟩ .f32 := iblk0 V c 4 t

/-- Row `p` of the features' block at point `t` is row `5000 t + p` of the features. -/
theorem xBlk_apply (c : Dev nD) (t : Fin cfg0.N) (p : Fin 5000) (k : Fin 64) (n : Fin 100000)
    (hn : n.val = t.val * 5000 + p.val) : xBlk V c t (ix2 p k) = xArr V c (ix2 n k) := by
  obtain ⟨e0, e1, -⟩ := idx_facts t
  unfold xBlk iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 64 + 1 * k.val = k.val; rw [e1]; omega

/-- Row `p` of the neighbour sums' block at point `t` is row `5000 t + p` of the neighbour sums. -/
theorem aggBlk_apply (c : Dev nD) (t : Fin cfg0.N) (p : Fin 5000) (k : Fin 64) (n : Fin 100000)
    (hn : n.val = t.val * 5000 + p.val) : aggBlk V c t (ix2 p k) = aggArr V c (ix2 n k) := by
  obtain ⟨-, -, e0, e1, -⟩ := idx_facts t
  unfold aggBlk iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 64 + 1 * k.val = k.val; rw [e1]; omega

/-- The first matrix's block is the matrix at every point. -/
theorem wrBlk_apply (c : Dev nD) (t : Fin cfg0.N) (k q : Fin 64) : wrBlk V c t (ix2 k q) = wrArr V c (ix2 k q) := by
  obtain ⟨-, -, -, -, e0, e1, -⟩ := idx_facts t
  unfold wrBlk iblk0
  rw [View.read_apply]
  show V c (Pipeline.arrRef spec0 2) _ = V c (Pipeline.arrRef spec0 2) _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias row's block is the row at every point. -/
theorem biasBlk_apply (c : Dev nD) (t : Fin cfg0.N) (q : Fin 64) :
    biasBlk V c t (ix2 (0 : Fin 1) q) = biasArr V c (ix2 (0 : Fin 1) q) := by
  obtain ⟨-, -, -, -, -, -, e0, e1, -⟩ := idx_facts t
  unfold biasBlk iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- The second matrix's block is the matrix at every point. -/
theorem wsBlk_apply (c : Dev nD) (t : Fin cfg0.N) (k q : Fin 64) : wsBlk V c t (ix2 k q) = wsArr V c (ix2 k q) := by
  obtain ⟨-, -, -, -, -, -, -, -, e0, e1, -⟩ := idx_facts t
  unfold wsBlk iblk0
  rw [View.read_apply]
  show V c (Pipeline.arrRef spec0 4) _ = V c (Pipeline.arrRef spec0 4) _
  congr 1
  funext a
  apply Fin.ext
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-! ## What a point writes back -/

/-- The layer of the arrays the call finds, the bias row read as a vector of 64. -/
abbrev layerArr (c : Dev nD) : FVec Ideal ⟨2, ![100000, 64]⟩ .f32 :=
  layerVal (xArr V c) (aggArr V c) (wrArr V c) (fun i => biasArr V c (ix2 (0 : Fin 1) (i 0))) (wsArr V c)

/-- The block's result at row `p`, channel `q` is the layer at row `5000 t + p`, channel `q`. -/
theorem point_eq (c : Dev nD) (t : Fin cfg0.N) (p : Fin 5000) (q : Fin 64) (n : Fin 100000)
    (hn : n.val = t.val * 5000 + p.val) :
    k0_pay1 (F := Ideal) (xBlk V c t) (aggBlk V c t) (wrBlk V c t) (wsBlk V c t) (biasBlk V c t) (ix2 p q)
      = layerArr V c (ix2 n q) := by
  refine (pay_apply (xBlk V c t) (aggBlk V c t) (wrBlk V c t) (wsBlk V c t) (biasBlk V c t) p q).trans ?_
  rw [biasBlk_apply V c t q]
  refine congrArg₂ max (congrArg₂ (· + ·) (congrArg₂ (· + ·) (Finset.sum_congr rfl fun k _ => ?_) (Finset.sum_congr rfl fun k _ => ?_)) rfl) rfl
  · rw [aggBlk_apply V c t p k n hn, wrBlk_apply V c t k q]
  · rw [xBlk_apply V c t p k n hn, wsBlk_apply V c t k q]

/-- Point `t` writes back block `t` of the layer. -/
theorem flushed_eq (c : Dev nD) (t : Fin cfg0.N) :
    (dat0 (F := Ideal) V c).flushed 5 t = ((cfg0.win 5).blk t).view.read (Elt Ideal) (layerArr V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts t
  funext j
  have hj0 : (j 0).val < 5000 := (j 0).isLt
  have hj1 : (j 1).val < 64 := (j 1).isLt
  have hN : cfg0.N = 20 := N_0
  have ht : t.val < 20 := hN ▸ t.isLt
  rw [View.read_apply]
  show k0_pay1 (F := Ideal) (xBlk V c t) (aggBlk V c t) (wrBlk V c t) (wsBlk V c t) (biasBlk V c t) j = _
  rw [eq_ix2 j]
  refine (point_eq V c t (j 0) (j 1) ⟨t.val * 5000 + (j 0).val, by omega⟩ rfl).trans ?_
  congr 1
  funext a
  apply Fin.ext
  match a with
  | ⟨0, _⟩ => show t.val * 5000 + (j 0).val = win0_5.index t (0 : Fin 2) * 5000 + 1 * (j 0).val; rw [e0]; omega
  | ⟨1, _⟩ => show (j 1).val = win0_5.index t (1 : Fin 2) * 64 + 1 * (j 1).val; rw [e1]; omega

/-! ## Every row lies in a block -/

/-- A row of the array lies in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Row `r` lies in the block of point `r / 5000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, -, -, e0, e1⟩ := idx_facts ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0']; omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [e1]; omega

/-! ## The array after the call -/

/-- After the last point the result array holds the layer of the arrays the call found. -/
theorem arr_eq (c : Dev nD) :
    (dat0 (F := Ideal) V c).arrAt 5 cfg0.N
      = layerVal (xArr V c) (aggArr V c) (wrArr V c) (fun i => biasArr V c (ix2 (0 : Fin 1) (i 0))) (wsArr V c) :=
  (dat0 (F := Ideal) V c).arrAt_eq_of_cover 5 (layerArr V c) (fun t _ => flushed_eq V c t) cover

end Cert.Gnn.Layer0

end
-- ==== Proof.Layer1.lean ====
/-
  The second graph-convolution call, read as an array.

  The call walks the 100000 rows in 20 blocks of 5000. At a block it holds 5000 rows of the features and of the
  neighbour sums, the two whole weight matrices and the bias as one row `[1, 64]`; it multiplies the neighbour sums by
  the first matrix and the features by the second, each product a sum over the 64 input channels into a zero
  accumulator, adds the two, adds the bias row to every row, and takes the maximum with zero. (The changes of float
  format in front of the products are the identity on the extended reals.) Row `r` of the array lies in block
  `r / 5000` at position `r % 5000`, every row lies in exactly one block, and each block writes back its own
  5000 rows; so after the last block the array holds, at row `n` and channel `j`,
      max ((Σ_k agg[n,k] · Wr[k,j] + Σ_k x[n,k] · Ws[k,j]) + b[0,j], 0).
-/
import proofs.«413460_j32590211842293_1_alg».proof.Proof.Gen.KernelIdeal.Frame
import proofs.«413460_j32590211842293_1_alg».proof.Proof.Spec
import proofs.«413460_j32590211842293_1_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

namespace Cert.Gnn.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the call finds -/

/-- The node features `[100000, 64]`. -/
abbrev xArr (c : Dev nD) : FVec Ideal ⟨2, ![100000, 64]⟩ .f32 := V c (Pipeline.arrRef spec1 0)
/-- The neighbour sums `[100000, 64]`. -/
abbrev aggArr (c : Dev nD) : FVec Ideal ⟨2, ![100000, 64]⟩ .f32 := V c (Pipeline.arrRef spec1 1)
/-- The matrix applied to the neighbour sums. -/
abbrev wrArr (c : Dev nD) : FVec Ideal ⟨2, ![64, 64]⟩ .f32 := V c (Pipeline.arrRef spec1 2)
/-- The bias as one row `[1, 64]`. -/
abbrev biasArr (c : Dev nD) : FVec Ideal ⟨2, ![1, 64]⟩ .f32 := V c (Pipeline.arrRef spec1 3)
/-- The matrix applied to the features. -/
abbrev wsArr (c : Dev nD) : FVec Ideal ⟨2, ![64, 64]⟩ .f32 := V c (Pipeline.arrRef spec1 4)

theorem xArr_eq (c : Dev nD) : xArr V c = V c (Pipeline.arrRef spec1 0) := rfl
theorem aggArr_eq (c : Dev nD) : aggArr V c = V c (Pipeline.arrRef spec1 1) := rfl
theorem wrArr_eq (c : Dev nD) : wrArr V c = V c (Pipeline.arrRef spec1 2) := rfl
theorem biasArr_eq (c : Dev nD) : biasArr V c = V c (Pipeline.arrRef spec1 3) := rfl
theorem wsArr_eq (c : Dev nD) : wsArr V c = V c (Pipeline.arrRef spec1 4) := rfl

/-! ## The block's arithmetic at an index -/

/-- At row `p`, channel `q` of a block: the two products are sums over the 64 input channels, the bias row is read at
    its one row, and the maximum is taken with zero. -/
theorem pay_apply (x a : FVec Ideal ⟨2, ![5000, 64]⟩ .f32) (wr ws : FVec Ideal ⟨2, ![64, 64]⟩ .f32)
    (b : FVec Ideal ⟨2, ![1, 64]⟩ .f32) (p : Fin 5000) (q : Fin 64) :
    (k1_pay1 (F := Ideal) x a wr ws b) (ix2 p q)
      = max ((∑ k : Fin 64, a (ix2 p k) * wr (ix2 k q) + ∑ k : Fin 64, x (ix2 p k) * ws (ix2 k q)) + b (ix2 (0 : Fin 1) q)) zeroF := by
  have hA := Cert.Gcn.Lib.matmul_rows_apply dot_S5000x64_S64x64_S5000x64_1_0_0_1_n_n_wf dot_S5000x64_S64x64_S5000x64_1_0_0_1_n_n rfl none
    (truncf .bf16 a bitsLt_bf16_f32) (truncf .bf16 wr bitsLt_bf16_f32) p q
  have hX := Cert.Gcn.Lib.matmul_rows_apply dot_S5000x64_S64x64_S5000x64_1_0_0_1_n_n_wf dot_S5000x64_S64x64_S5000x64_1_0_0_1_n_n rfl none
    (truncf .bf16 x bitsLt_bf16_f32) (truncf .bf16 ws bitsLt_bf16_f32) p q
  have hB := broadcastTo_1b_ab_apply b broadcasts_S1x64_S5000x64 p q
  unfold k1_pay1
  simp only [maximumf_apply, addf_apply, broadcast_apply, shapeCast_self]
  exact congrArg₂ max (congrArg₂ (· + ·) (congrArg₂ (· + ·) hA hX) hB) rfl

/-! ## Which rows a block holds -/

theorem hz : (![0, 0] : Fin 2 → Nat) = fun _ => 0 := funext fun a => by fin_cases a <;> rfl

/-- The block indices over the 20 points: the row blocks of the features, the neighbour sums and the result are the
    point's own, the column block is the only one; the matrices and the bias are whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The blocks at point `t`, at their literal types. -/
abbrev xBlk (c : Dev nD) (t : Fin cfg1.N) : FVec Ideal ⟨2, ![5000, 64]⟩ .f32 := iblk1 V c 0 t
abbrev aggBlk (c : Dev nD) (t : Fin cfg1.N) : FVec Ideal ⟨2, ![5000, 64]⟩ .f32 := iblk1 V c 1 t
abbrev wrBlk (c : Dev nD) (t : Fin cfg1.N) : FVec Ideal ⟨2, ![64, 64]⟩ .f32 := iblk1 V c 2 t
abbrev biasBlk (c : Dev nD) (t : Fin cfg1.N) : FVec Ideal ⟨2, ![1, 64]⟩ .f32 := iblk1 V c 3 t
abbrev wsBlk (c : Dev nD) (t : Fin cfg1.N) : FVec Ideal ⟨2, ![64, 64]⟩ .f32 := iblk1 V c 4 t

/-- Row `p` of the features' block at point `t` is row `5000 t + p` of the features. -/
theorem xBlk_apply (c : Dev nD) (t : Fin cfg1.N) (p : Fin 5000) (k : Fin 64) (n : Fin 100000)
    (hn : n.val = t.val * 5000 + p.val) : xBlk V c t (ix2 p k) = xArr V c (ix2 n k) := by
  obtain ⟨e0, e1, -⟩ := idx_facts t
  unfold xBlk iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- Row `p` of the neighbour sums' block at point `t` is row `5000 t + p` of the neighbour sums. -/
theorem aggBlk_apply (c : Dev nD) (t : Fin cfg1.N) (p : Fin 5000) (k : Fin 64) (n : Fin 100000)
    (hn : n.val = t.val * 5000 + p.val) : aggBlk V c t (ix2 p k) = aggArr V c (ix2 n k) := by
  obtain ⟨-, -, e0, e1, -⟩ := idx_facts t
  unfold aggBlk iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The first matrix's block is the matrix at every point. -/
theorem wrBlk_apply (c : Dev nD) (t : Fin cfg1.N) (k q : Fin 64) : wrBlk V c t (ix2 k q) = wrArr V c (ix2 k q) := by
  obtain ⟨-, -, -, -, e0, e1, -⟩ := idx_facts t
  unfold wrBlk iblk1
  rw [View.read_apply]
  show V c (Pipeline.arrRef spec1 2) _ = V c (Pipeline.arrRef spec1 2) _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The bias row's block is the row at every point. -/
theorem biasBlk_apply (c : Dev nD) (t : Fin cfg1.N) (q : Fin 64) :
    biasBlk V c t (ix2 (0 : Fin 1) q) = biasArr V c (ix2 (0 : Fin 1) q) := by
  obtain ⟨-, -, -, -, -, -, e0, e1, -⟩ := idx_facts t
  unfold biasBlk iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

/-- The second matrix's block is the matrix at every point. -/
theorem wsBlk_apply (c : Dev nD) (t : Fin cfg1.N) (k q : Fin 64) : wsBlk V c t (ix2 k q) = wsArr V c (ix2 k q) := by
  obtain ⟨-, -, -, -, -, -, -, -, e0, e1, -⟩ := idx_facts t
  unfold wsBlk iblk1
  rw [View.read_apply]
  show V c (Pipeline.arrRef spec1 4) _ = V c (Pipeline.arrRef spec1 4) _
  congr 1
  funext a
  apply Fin.ext
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-! ## What a point writes back -/

/-- The layer of the arrays the call finds, the bias row read as a vector of 64. -/
abbrev layerArr (c : Dev nD) : FVec Ideal ⟨2, ![100000, 64]⟩ .f32 :=
  layerVal (xArr V c) (aggArr V c) (wrArr V c) (fun i => biasArr V c (ix2 (0 : Fin 1) (i 0))) (wsArr V c)

/-- The block's result at row `p`, channel `q` is the layer at row `5000 t + p`, channel `q`. -/
theorem point_eq (c : Dev nD) (t : Fin cfg1.N) (p : Fin 5000) (q : Fin 64) (n : Fin 100000)
    (hn : n.val = t.val * 5000 + p.val) :
    k1_pay1 (F := Ideal) (xBlk V c t) (aggBlk V c t) (wrBlk V c t) (wsBlk V c t) (biasBlk V c t) (ix2 p q)
      = layerArr V c (ix2 n q) := by
  refine (pay_apply (xBlk V c t) (aggBlk V c t) (wrBlk V c t) (wsBlk V c t) (biasBlk V c t) p q).trans ?_
  rw [biasBlk_apply V c t q]
  refine congrArg₂ max (congrArg₂ (· + ·) (congrArg₂ (· + ·) (Finset.sum_congr rfl fun k _ => ?_) (Finset.sum_congr rfl fun k _ => ?_)) rfl) rfl
  · rw [aggBlk_apply V c t p k n hn, wrBlk_apply V c t k q]
  · rw [xBlk_apply V c t p k n hn, wsBlk_apply V c t k q]

/-- Point `t` writes back block `t` of the layer. -/
theorem flushed_eq (c : Dev nD) (t : Fin cfg1.N) :
    (dat1 (F := Ideal) V c).flushed 5 t = ((cfg1.win 5).blk t).view.read (Elt Ideal) (layerArr V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts t
  funext j
  have hj0 : (j 0).val < 5000 := (j 0).isLt
  have hj1 : (j 1).val < 64 := (j 1).isLt
  have hN : cfg1.N = 20 := N_1
  have ht : t.val < 20 := hN ▸ t.isLt
  rw [View.read_apply]
  show k1_pay1 (F := Ideal) (xBlk V c t) (aggBlk V c t) (wrBlk V c t) (wsBlk V c t) (biasBlk V c t) j = _
  rw [eq_ix2 j]
  refine (point_eq V c t (j 0) (j 1) ⟨t.val * 5000 + (j 0).val, by omega⟩ rfl).trans ?_
  congr 1
  funext a
  apply Fin.ext
  match a with
  | ⟨0, _⟩ => show t.val * 5000 + (j 0).val = win1_5.index t (0 : Fin 2) * 5000 + 1 * (j 0).val; rw [e0]; omega
  | ⟨1, _⟩ => show (j 1).val = win1_5.index t (1 : Fin 2) * 64 + 1 * (j 1).val; rw [e1]; omega

/-! ## Every row lies in a block -/

/-- A row of the array lies in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v27).slice (win1_5.rect t)).set ↔ _
  rw [View.set_slice_whole, Rect.mem_set_unit]
  exact Iff.rfl

/-- Row `r` lies in the block of point `r / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, e0, e1⟩ := idx_facts ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0']; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-! ## The array after the call -/

/-- After the last point the result array holds the layer of the arrays the call found. -/
theorem arr_eq (c : Dev nD) :
    (dat1 (F := Ideal) V c).arrAt 5 cfg1.N
      = layerVal (xArr V c) (aggArr V c) (wrArr V c) (fun i => biasArr V c (ix2 (0 : Fin 1) (i 0))) (wsArr V c) :=
  (dat1 (F := Ideal) V c).arrAt_eq_of_cover 5 (layerArr V c) (fun t _ => flushed_eq V c t) cover

end Cert.Gnn.Layer1

end
-- ==== Proof.Layer2.lean ====
/-
  The third graph-convolution call, read as an array.

  The call walks the 100000 rows in 20 blocks of 5000. At a block it holds 5000 rows of the features and of the
  neighbour sums, the two whole weight matrices and the bias as one row `[1, 64]`; it multiplies the neighbour sums by
  the first matrix and the features by the second, each product a sum over the 64 input channels into a zero
  accumulator, adds the two, adds the bias row to every row, and takes the maximum with zero. (The changes of float
  format in front of the products are the identity on the extended reals.) Row `r` of the array lies in block
  `r / 5000` at position `r % 5000`, every row lies in exactly one block, and each block writes back its own
  5000 rows; so after the last block the array holds, at row `n` and channel `j`,
      max ((Σ_k agg[n,k] · Wr[k,j] + Σ_k x[n,k] · Ws[k,j]) + b[0,j], 0).
-/
import proofs.«413460_j32590211842293_1_alg».proof.Proof.Gen.KernelIdeal.Frame
import proofs.«413460_j32590211842293_1_alg».proof.Proof.Spec
import proofs.«413460_j32590211842293_1_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

namespace Cert.Gnn.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the call finds -/

/-- The node features `[100000, 64]`. -/
abbrev xArr (c : Dev nD) : FVec Ideal ⟨2, ![100000, 64]⟩ .f32 := V c (Pipeline.arrRef spec2 0)
/-- The neighbour sums `[100000, 64]`. -/
abbrev aggArr (c : Dev nD) : FVec Ideal ⟨2, ![100000, 64]⟩ .f32 := V c (Pipeline.arrRef spec2 1)
/-- The matrix applied to the neighbour sums. -/
abbrev wrArr (c : Dev nD) : FVec Ideal ⟨2, ![64, 64]⟩ .f32 := V c (Pipeline.arrRef spec2 2)
/-- The bias as one row `[1, 64]`. -/
abbrev biasArr (c : Dev nD) : FVec Ideal ⟨2, ![1, 64]⟩ .f32 := V c (Pipeline.arrRef spec2 3)
/-- The matrix applied to the features. -/
abbrev wsArr (c : Dev nD) : FVec Ideal ⟨2, ![64, 64]⟩ .f32 := V c (Pipeline.arrRef spec2 4)

theorem xArr_eq (c : Dev nD) : xArr V c = V c (Pipeline.arrRef spec2 0) := rfl
theorem aggArr_eq (c : Dev nD) : aggArr V c = V c (Pipeline.arrRef spec2 1) := rfl
theorem wrArr_eq (c : Dev nD) : wrArr V c = V c (Pipeline.arrRef spec2 2) := rfl
theorem biasArr_eq (c : Dev nD) : biasArr V c = V c (Pipeline.arrRef spec2 3) := rfl
theorem wsArr_eq (c : Dev nD) : wsArr V c = V c (Pipeline.arrRef spec2 4) := rfl

/-! ## The block's arithmetic at an index -/

/-- At row `p`, channel `q` of a block: the two products are sums over the 64 input channels, the bias row is read at
    its one row, and the maximum is taken with zero. -/
theorem pay_apply (x a : FVec Ideal ⟨2, ![5000, 64]⟩ .f32) (wr ws : FVec Ideal ⟨2, ![64, 64]⟩ .f32)
    (b : FVec Ideal ⟨2, ![1, 64]⟩ .f32) (p : Fin 5000) (q : Fin 64) :
    (k2_pay1 (F := Ideal) x a wr ws b) (ix2 p q)
      = max ((∑ k : Fin 64, a (ix2 p k) * wr (ix2 k q) + ∑ k : Fin 64, x (ix2 p k) * ws (ix2 k q)) + b (ix2 (0 : Fin 1) q)) zeroF := by
  have hA := Cert.Gcn.Lib.matmul_rows_apply dot_S5000x64_S64x64_S5000x64_1_0_0_1_n_n_wf dot_S5000x64_S64x64_S5000x64_1_0_0_1_n_n rfl none
    (truncf .bf16 a bitsLt_bf16_f32) (truncf .bf16 wr bitsLt_bf16_f32) p q
  have hX := Cert.Gcn.Lib.matmul_rows_apply dot_S5000x64_S64x64_S5000x64_1_0_0_1_n_n_wf dot_S5000x64_S64x64_S5000x64_1_0_0_1_n_n rfl none
    (truncf .bf16 x bitsLt_bf16_f32) (truncf .bf16 ws bitsLt_bf16_f32) p q
  have hB := broadcastTo_1b_ab_apply b broadcasts_S1x64_S5000x64 p q
  unfold k2_pay1
  simp only [maximumf_apply, addf_apply, broadcast_apply, shapeCast_self]
  exact congrArg₂ max (congrArg₂ (· + ·) (congrArg₂ (· + ·) hA hX) hB) rfl

/-! ## Which rows a block holds -/

theorem hz : (![0, 0] : Fin 2 → Nat) = fun _ => 0 := funext fun a => by fin_cases a <;> rfl

/-- The block indices over the 20 points: the row blocks of the features, the neighbour sums and the result are the
    point's own, the column block is the only one; the matrices and the bias are whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The blocks at point `t`, at their literal types. -/
abbrev xBlk (c : Dev nD) (t : Fin cfg2.N) : FVec Ideal ⟨2, ![5000, 64]⟩ .f32 := iblk2 V c 0 t
abbrev aggBlk (c : Dev nD) (t : Fin cfg2.N) : FVec Ideal ⟨2, ![5000, 64]⟩ .f32 := iblk2 V c 1 t
abbrev wrBlk (c : Dev nD) (t : Fin cfg2.N) : FVec Ideal ⟨2, ![64, 64]⟩ .f32 := iblk2 V c 2 t
abbrev biasBlk (c : Dev nD) (t : Fin cfg2.N) : FVec Ideal ⟨2, ![1, 64]⟩ .f32 := iblk2 V c 3 t
abbrev wsBlk (c : Dev nD) (t : Fin cfg2.N) : FVec Ideal ⟨2, ![64, 64]⟩ .f32 := iblk2 V c 4 t

/-- Row `p` of the features' block at point `t` is row `5000 t + p` of the features. -/
theorem xBlk_apply (c : Dev nD) (t : Fin cfg2.N) (p : Fin 5000) (k : Fin 64) (n : Fin 100000)
    (hn : n.val = t.val * 5000 + p.val) : xBlk V c t (ix2 p k) = xArr V c (ix2 n k) := by
  obtain ⟨e0, e1, -⟩ := idx_facts t
  unfold xBlk iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 64 + 1 * k.val = k.val; rw [e1]; omega

/-- Row `p` of the neighbour sums' block at point `t` is row `5000 t + p` of the neighbour sums. -/
theorem aggBlk_apply (c : Dev nD) (t : Fin cfg2.N) (p : Fin 5000) (k : Fin 64) (n : Fin 100000)
    (hn : n.val = t.val * 5000 + p.val) : aggBlk V c t (ix2 p k) = aggArr V c (ix2 n k) := by
  obtain ⟨-, -, e0, e1, -⟩ := idx_facts t
  unfold aggBlk iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = n.val; rw [e0, hn]; omega
  | ⟨1, _⟩ => show win2_1.index t (1 : Fin 2) * 64 + 1 * k.val = k.val; rw [e1]; omega

/-- The first matrix's block is the matrix at every point. -/
theorem wrBlk_apply (c : Dev nD) (t : Fin cfg2.N) (k q : Fin 64) : wrBlk V c t (ix2 k q) = wrArr V c (ix2 k q) := by
  obtain ⟨-, -, -, -, e0, e1, -⟩ := idx_facts t
  unfold wrBlk iblk2
  rw [View.read_apply]
  show V c (Pipeline.arrRef spec2 2) _ = V c (Pipeline.arrRef spec2 2) _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The bias row's block is the row at every point. -/
theorem biasBlk_apply (c : Dev nD) (t : Fin cfg2.N) (q : Fin 64) :
    biasBlk V c t (ix2 (0 : Fin 1) q) = biasArr V c (ix2 (0 : Fin 1) q) := by
  obtain ⟨-, -, -, -, -, -, e0, e1, -⟩ := idx_facts t
  unfold biasBlk iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- The second matrix's block is the matrix at every point. -/
theorem wsBlk_apply (c : Dev nD) (t : Fin cfg2.N) (k q : Fin 64) : wsBlk V c t (ix2 k q) = wsArr V c (ix2 k q) := by
  obtain ⟨-, -, -, -, -, -, -, -, e0, e1, -⟩ := idx_facts t
  unfold wsBlk iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * k.val = k.val; rw [e0]; omega
  | ⟨1, _⟩ => show win2_4.index t (1 : Fin 2) * 64 + 1 * q.val = q.val; rw [e1]; omega

/-! ## What a point writes back -/

/-- The layer of the arrays the call finds, the bias row read as a vector of 64. -/
abbrev layerArr (c : Dev nD) : FVec Ideal ⟨2, ![100000, 64]⟩ .f32 :=
  layerVal (xArr V c) (aggArr V c) (wrArr V c) (fun i => biasArr V c (ix2 (0 : Fin 1) (i 0))) (wsArr V c)

/-- The block's result at row `p`, channel `q` is the layer at row `5000 t + p`, channel `q`. -/
theorem point_eq (c : Dev nD) (t : Fin cfg2.N) (p : Fin 5000) (q : Fin 64) (n : Fin 100000)
    (hn : n.val = t.val * 5000 + p.val) :
    k2_pay1 (F := Ideal) (xBlk V c t) (aggBlk V c t) (wrBlk V c t) (wsBlk V c t) (biasBlk V c t) (ix2 p q)
      = layerArr V c (ix2 n q) := by
  refine (pay_apply (xBlk V c t) (aggBlk V c t) (wrBlk V c t) (wsBlk V c t) (biasBlk V c t) p q).trans ?_
  rw [biasBlk_apply V c t q]
  refine congrArg₂ max (congrArg₂ (· + ·) (congrArg₂ (· + ·) (Finset.sum_congr rfl fun k _ => ?_) (Finset.sum_congr rfl fun k _ => ?_)) rfl) rfl
  · rw [aggBlk_apply V c t p k n hn, wrBlk_apply V c t k q]
  · rw [xBlk_apply V c t p k n hn, wsBlk_apply V c t k q]

/-- Point `t` writes back block `t` of the layer. -/
theorem flushed_eq (c : Dev nD) (t : Fin cfg2.N) :
    (dat2 (F := Ideal) V c).flushed 5 t = ((cfg2.win 5).blk t).view.read (Elt Ideal) (layerArr V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts t
  funext j
  have hj0 : (j 0).val < 5000 := (j 0).isLt
  have hj1 : (j 1).val < 64 := (j 1).isLt
  have hN : cfg2.N = 20 := N_2
  have ht : t.val < 20 := hN ▸ t.isLt
  rw [View.read_apply]
  show k2_pay1 (F := Ideal) (xBlk V c t) (aggBlk V c t) (wrBlk V c t) (wsBlk V c t) (biasBlk V c t) j = _
  rw [eq_ix2 j]
  refine (point_eq V c t (j 0) (j 1) ⟨t.val * 5000 + (j 0).val, by omega⟩ rfl).trans ?_
  congr 1
  funext a
  apply Fin.ext
  match a with
  | ⟨0, _⟩ => show t.val * 5000 + (j 0).val = win2_5.index t (0 : Fin 2) * 5000 + 1 * (j 0).val; rw [e0]; omega
  | ⟨1, _⟩ => show (j 1).val = win2_5.index t (1 : Fin 2) * 64 + 1 * (j 1).val; rw [e1]; omega

/-! ## Every row lies in a block -/

/-- A row of the array lies in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

/-- Row `r` lies in the block of point `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  have ht : (i 0).val / 5000 < cfg2.N := by rw [hN]; omega
  obtain ⟨-, -, -, -, -, -, -, -, -, -, e0, e1⟩ := idx_facts ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0']; omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]; omega

/-! ## The array after the call -/

/-- After the last point the result array holds the layer of the arrays the call found. -/
theorem arr_eq (c : Dev nD) :
    (dat2 (F := Ideal) V c).arrAt 5 cfg2.N
      = layerVal (xArr V c) (aggArr V c) (wrArr V c) (fun i => biasArr V c (ix2 (0 : Fin 1) (i 0))) (wsArr V c) :=
  (dat2 (F := Ideal) V c).arrAt_eq_of_cover 5 (layerArr V c) (fun t _ => flushed_eq V c t) cover

end Cert.Gnn.Layer2

end
-- ==== Proof.Pool.lean ====
/-
  The pooling region: what its output array holds after its twenty grid points.

  The region walks the node features `[100000, 64]` and the graph words `[100000, 1]` in twenty blocks of 5000 nodes
  and keeps ONE accumulator `[128, 64]`, the same block at every point. At the first point the accumulator is set to
  zero; at every point it is increased by `onehotᵀ · block`, where `onehot[n, g]` is one when node `n`'s word equals
  the word `g` and zero otherwise, both operands contracted over the node axis; after the last point it is written back.

  At graph `g`, channel `j` the update adds `Σ_k onehot[k, g] · h[k, j]` over the block's nodes. On the extended reals
  `1 · x = x` and `0 · x = 0` for every `x`, infinities included, so each term is the row entry where the word names
  `g` and zero elsewhere; a word equals the word of `g < 128` exactly when it reads `g` as a signed integer. After
  point `n` the accumulator therefore holds the zero plus the sums of blocks `0 … n` (induction on the point; addition
  is associative), the twenty block sums are one sum over all 100000 nodes (node `5000 t + k` is node `k` of block `t`),
  and a sum of "entry or zero" terms is the sum over the nodes that pass the test. That is the pooled table.
-/
import proofs.«413460_j32590211842293_1_alg».proof.Proof.Gen.KernelIdeal.Frame
import proofs.«413460_j32590211842293_1_alg».proof.Proof.Spec
import proofs.«413460_j32590211842293_1_alg».proof.Proof.LibMatmulRows
import Idealize.ShloMosaic.Lib.Pipeline.Value
import Idealize.ShloMosaic.Lib.Tactic
import Mathlib.Algebra.BigOperators.Fin
import Mathlib.Logic.Equiv.Fin.Basic

noncomputable section

open Idealize.ShloMosaic Idealize.ShloMosaic.TcCoe Idealize.SL.Sem
open Idealize.ShloMosaic.Pipeline (Dat)

namespace Cert.Gnn.Pool

open Cert.KernelIdeal Cert.KernelIdeal.Gen Idealize.ShloMosaic.ValueIdx

/-! ## Words, the one and the zero, and sums over blocks -/

/-- A comparison for equality answers the one-bit word 1 exactly when the two words are equal. -/
theorem ofBool_beq_eq_one {w : Nat} (a b : BitVec w) : BitVec.ofBool (a == b) = 1#1 ↔ a = b := by
  constructor
  · intro h
    by_contra hne
    rw [beq_eq_false_iff_ne.mpr hne] at h
    exact absurd h (by decide)
  · rintro rfl; simp

/-- A 32-bit word is the word of `g < 128` exactly when, read as a signed integer, it is `g`. -/
theorem word_eq_iff (w : BitVec 32) (g : Fin 128) : w = BitVec.ofNat 32 g.val ↔ w.toInt = (g.val : ℤ) := by
  rw [← BitVec.toNat_inj, BitVec.toInt_eq_toNat_cond, BitVec.toNat_ofNat]
  have := g.isLt
  have := w.isLt
  split <;> omega

theorem row_lt (t : Fin 20) (k : Fin 5000) : 5000 * t.val + k.val < 100000 := by
  have := t.isLt; have := k.isLt; omega

/-- Node `k` of block `t`. -/
def row (t : Fin 20) (k : Fin 5000) : Fin 100000 := ⟨5000 * t.val + k.val, row_lt t k⟩

/-- A sum over the 100000 nodes is the sum over the twenty blocks of the sums over each block's 5000 nodes. -/
theorem sum_blocks {M : Type} [AddCommMonoid M] (f : Fin 100000 → M) :
    ∑ n : Fin 100000, f n = ∑ t : Fin 20, ∑ k : Fin 5000, f (row t k) := by
  let e : Fin 20 × Fin 5000 ≃ Fin 100000 := (finProdFinEquiv (m := 20) (n := 5000)).trans (finCongr (by norm_num))
  have he : ∀ (t : Fin 20) (k : Fin 5000), e (t, k) = row t k := fun t k =>
    Fin.ext (by show k.val + 5000 * t.val = 5000 * t.val + k.val; omega)
  calc ∑ n : Fin 100000, f n = ∑ p : Fin 20 × Fin 5000, f (e p) := (Equiv.sum_comp e f).symm
    _ = ∑ t : Fin 20, ∑ k : Fin 5000, f (e (t, k)) := Fintype.sum_prod_type _
    _ = _ := by simp only [he]

/-! ## What each case of the body leaves in the accumulator -/

section Pieces
variable {F : FTy → Type} [FloatOps F]

/-- The offsets of every access of the body are zero. -/
theorem hz : (![0, 0] : Fin 2 → Nat) = fun _ => 0 := funext fun a => by fin_cases a <;> rfl

/-- Away from the first point the body's one store leaves the update of the accumulator it found: all three loads
    read whole buffers. -/
theorem out_B (c : Dev nD) (i : grid3.Coords) (a1 : Memref sig .tc .vmem S5000x64 .f32) (h1 : a1.IsWhole)
    (a2 : Memref sig .tc .vmem S5000x1 .i32) (h2 : a2.IsWhole) (a3 : Memref sig .tc .vmem S128x64 .f32) (h3 : a3.IsWhole)
    (hc : ¬cond3_0 i) (x0 : Vec F S5000x64 .f32) (x1 : Vec F S5000x1 .i32) (xo : Vec F S128x64 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S128x64) hz]

/-- At the first point the body stores the zero block, reads it back, and stores the update of that zero block. -/
theorem out_A (c : Dev nD) (i : grid3.Coords) (a1 : Memref sig .tc .vmem S5000x64 .f32) (h1 : a1.IsWhole)
    (a2 : Memref sig .tc .vmem S5000x1 .i32) (h2 : a2.IsWhole) (a3 : Memref sig .tc .vmem S128x64 .f32) (h3 : a3.IsWhole)
    (hc : cond3_0 i) (x0 : Vec F S5000x64 .f32) (x1 : Vec F S5000x1 .i32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S128x64) hz, View.readCov_unit_zero (S := S128x64) _ hz]
  simp only [View.readAt_eq_ld, h1.read_unread, h2.read_unread, View.ld_unit_zero (S := S5000x64) hz,
    View.ld_unit_zero (S := S5000x1) hz]

end Pieces

/-! ## The update's payload at an index -/

/-- The indicator at node `k`, graph `g`: the node's word broadcast along the graphs, compared with the graph's own
    number, selects the one or the zero. -/
theorem hot_apply (x1 : IVec ⟨2, ![5000, 1]⟩ 32) (k : Fin 5000) (g : Fin 128) :
    (select (cmpi .eq (broadcastTo S5000x128 (shapeCast S5000x1 x1 shapeCasts_S5000x1_S5000x1) broadcasts_S5000x1_S5000x128)
        (iota .tc S5000x128 32 [1] iota_S5000x128_d1_w32))
      (broadcast S5000x128 (Scalar.ofBits (F := Ideal) .f32 0x3F800000#32))
      (broadcast S5000x128 (Scalar.ofBits (F := Ideal) .f32 0x00000000#32)) : FVec Ideal S5000x128 .f32) (ix2 k g)
      = if x1 (ix2 k (0 : Fin 1)) = BitVec.ofNat 32 g.val then oneF else zeroF := by
  have hb : broadcastTo S5000x128 (shapeCast S5000x1 x1 shapeCasts_S5000x1_S5000x1) broadcasts_S5000x1_S5000x128 (ix2 k g)
      = x1 (ix2 k (0 : Fin 1)) :=
    (broadcastTo_apply _ _ (ix2 k g) (ix2 k (0 : Fin 1)) (fun a => by
      match a with
      | ⟨0, _⟩ => rfl
      | ⟨1, _⟩ => rfl)).trans (congrFun (shapeCast_self x1 _) _)
  have hi : iota .tc S5000x128 32 [1] iota_S5000x128_d1_w32 (ix2 k g) = BitVec.ofNat 32 g.val :=
    iota_single_apply .tc S5000x128 32 1 _ (ix2 k g)
  show (if IntOp.cmpi .eq _ _ = 1#1 then _ else _) = _
  rw [hb, hi]
  show (if BitVec.ofBool (_ == _) = 1#1 then _ else _) = _
  simp only [ofBool_beq_eq_one]
  rfl

/-- The update at `(g, j)`: the accumulator's entry plus the product of the indicator and the feature block, both
    contracted over the block's nodes (changing the float format does nothing on the extended reals). -/
theorem pay2_apply (x0 : FVec Ideal ⟨2, ![5000, 64]⟩ .f32) (x1 : IVec ⟨2, ![5000, 1]⟩ 32) (acc : FVec Ideal ⟨2, ![128, 64]⟩ .f32)
    (g : Fin 128) (j : Fin 64) :
    k3_pay2 (F := Ideal) x0 x1 acc (ix2 g j)
      = acc (ix2 g j) + ∑ k : Fin 5000, (if x1 (ix2 k (0 : Fin 1)) = BitVec.ofNat 32 g.val then oneF else zeroF) * x0 (ix2 k j) := by
  unfold k3_pay2
  dsimp only
  refine congrArg₂ (· + ·) (congrFun (shapeCast_self acc _) (ix2 g j)) ?_
  refine (Cert.Gcn.Lib.matmul_cols_apply dot_S5000x128_S5000x64_S128x64_0_0_1_1_n_n_wf
    dot_S5000x128_S5000x64_S128x64_0_0_1_1_n_n rfl none _ _ g j).trans ?_
  refine Finset.sum_congr rfl fun k _ => ?_
  refine congrArg₂ (· * ·) (hot_apply x1 k g) (congrFun (shapeCast_self x0 _) (ix2 k j))

/-- The word `0x3F800000` is the real number one, the zero word zero. -/
theorem oneF_eq : oneF = 1 := by
  show Ideal.ofBits .f32 0x3F800000#32 = 1
  simp [Ideal.ofBits, Ideal.ieee, -EReal.coe_mul]; norm_num

theorem zeroF_eq : zeroF = 0 := Ideal.ofBits_zero_f32

/-- An indicator times an entry is the entry where the word reads `g`, and zero elsewhere — for every entry,
    infinite ones included. -/
theorem term_eq (w : BitVec 32) (g : Fin 128) (x : Ideal .f32) :
    (if w = BitVec.ofNat 32 g.val then oneF else zeroF) * x = if w.toInt = (g.val : ℤ) then x else 0 := by
  by_cases h : w = BitVec.ofNat 32 g.val
  · rw [if_pos h, if_pos ((word_eq_iff w g).mp h), oneF_eq, one_mul]
  · rw [if_neg h, if_neg (fun h' => h ((word_eq_iff w g).mpr h')), zeroF_eq, zero_mul]

/-! ## The arrays and their blocks -/

section Region
variable (V : (c : Dev nD) → (b : Ref sig .tc) → Buf (Elt Ideal) ((c : Thread nD τ).loc b))

/-- The node features the region finds, `[100000, 64]`. -/
abbrev Harr (c : Dev nD) : FVec Ideal ⟨2, ![100000, 64]⟩ .f32 := V c (Pipeline.arrRef spec3 0)
theorem Harr_eq (c : Dev nD) : Harr V c = V c (Pipeline.arrRef spec3 0) := rfl
/-- The graph words the region finds, `[100000, 1]`. -/
abbrev Barr (c : Dev nD) : IVec ⟨2, ![100000, 1]⟩ 32 := V c (Pipeline.arrRef spec3 1)
theorem Barr_eq (c : Dev nD) : Barr V c = V c (Pipeline.arrRef spec3 1) := rfl

/-- The feature block and the word block of point `t`. -/
abbrev hblk (c : Dev nD) (t : Fin cfg3.N) : FVec Ideal ⟨2, ![5000, 64]⟩ .f32 := iblk3 V c 0 t
abbrev bblk (c : Dev nD) (t : Fin cfg3.N) : IVec ⟨2, ![5000, 1]⟩ 32 := iblk3 V c 1 t

/-- A point of the grid as a number below twenty. -/
def pt (t : Fin cfg3.N) : Fin 20 := ⟨t.val, lt_of_lt_of_eq t.isLt (show cfg3.N = 20 from N_3)⟩

/-- Block `t` of either input starts at row `5000 t`, column 0. -/
theorem idx3 : ∀ t : Fin cfg3.N, win3_0.index t 0 = t.val ∧ win3_0.index t 1 = 0 ∧ win3_1.index t 0 = t.val ∧ win3_1.index t 1 = 0 :=
  (by decide +kernel : ∀ t : Fin grid3.N, win3_0.index t 0 = t.val ∧ win3_0.index t 1 = 0 ∧ win3_1.index t 0 = t.val ∧ win3_1.index t 1 = 0)

/-- Row `k` of feature block `t` is row `5000 t + k` of the features. -/
theorem hblk_apply (c : Dev nD) (t : Fin cfg3.N) (k : Fin 5000) (j : Fin 64) :
    hblk V c t (ix2 k j) = Harr V c (ix2 (row (pt t) k) j) := by
  unfold hblk iblk3
  rw [View.read_apply]
  show V c (Pipeline.arrRef spec3 0) _ = V c (Pipeline.arrRef spec3 0) _
  congr 1
  funext a
  apply Fin.ext
  match a with
  | ⟨0, _⟩ => show win3_0.index t 0 * 5000 + 1 * k.val = 5000 * t.val + k.val; rw [(idx3 t).1]; omega
  | ⟨1, _⟩ => show win3_0.index t 1 * 64 + 1 * j.val = j.val; rw [(idx3 t).2.1]; omega

/-- Word `k` of word block `t` is word `5000 t + k`. -/
theorem bblk_apply (c : Dev nD) (t : Fin cfg3.N) (k : Fin 5000) :
    bblk V c t (ix2 k (0 : Fin 1)) = Barr V c (ix2 (row (pt t) k) (0 : Fin 1)) := by
  unfold bblk iblk3
  rw [View.read_apply]
  show V c (Pipeline.arrRef spec3 1) _ = V c (Pipeline.arrRef spec3 1) _
  congr 1
  funext a
  apply Fin.ext
  match a with
  | ⟨0, _⟩ => show win3_1.index t 0 * 5000 + 1 * k.val = 5000 * t.val + k.val; rw [(idx3 t).2.2.1]; omega
  | ⟨1, _⟩ => show win3_1.index t 1 * 1 + 1 * (0 : Fin 1).val = (0 : Fin 1).val; rw [(idx3 t).2.2.2]; rfl

end Region

/-! ## What the accumulator holds after each point -/

/-- What block `t` adds at graph `g`, channel `j`: its nodes' rows against the indicator of the word `g`. -/
def blockSum (H : FVec Ideal ⟨2, ![100000, 64]⟩ .f32) (B : IVec ⟨2, ![100000, 1]⟩ 32) (g : Fin 128) (j : Fin 64) (t : Fin 20) : Ideal .f32 :=
  ∑ k : Fin 5000, (if B (ix2 (row t k) (0 : Fin 1)) = BitVec.ofNat 32 g.val then oneF else zeroF) * H (ix2 (row t k) j)

section Region
variable (V : (c : Dev nD) → (b : Ref sig .tc) → Buf (Elt Ideal) ((c : Thread nD τ).loc b))

/-- The update at point `t` adds block `t`'s sum to whatever the accumulator held. -/
theorem upd_apply (c : Dev nD) (t : Fin cfg3.N) (acc : FVec Ideal ⟨2, ![128, 64]⟩ .f32) (g : Fin 128) (j : Fin 64) :
    k3_pay2 (F := Ideal) (hblk V c t) (bblk V c t) acc (ix2 g j)
      = acc (ix2 g j) + blockSum (Harr V c) (Barr V c) g j (pt t) := by
  refine (pay2_apply (hblk V c t) (bblk V c t) acc g j).trans ?_
  unfold blockSum
  refine congrArg (acc (ix2 g j) + ·) (Finset.sum_congr rfl fun k _ => ?_)
  rw [hblk_apply V c t k j, bblk_apply V c t k]

/-- The points up to a point of the grid are below twenty. -/
theorem lt20 (n : ℕ) (h : n < cfg3.N) (s : Fin (n + 1)) : s.val < 20 := by
  have hN : cfg3.N = 20 := N_3
  have := s.isLt
  omega

/-- After point `n` the accumulator holds, at `(g, j)`, the zero it was reset to plus the sums of blocks `0 … n`. -/
theorem outsAt_apply (c : Dev nD) : ∀ (n : ℕ) (h : n < cfg3.N) (g : Fin 128) (j : Fin 64),
    (outsAt3 V c n h : FVec Ideal ⟨2, ![128, 64]⟩ .f32) (ix2 g j)
      = zeroF + ∑ s : Fin (n + 1), blockSum (Harr V c) (Barr V c) g j ⟨s.val, lt20 n h s⟩
  | 0, h, g, j => by
    refine (congrFun ((outsAt3_A V c ⟨0, h⟩ rfl).trans (out_A (F := Ideal) c (grid3.coords ⟨0, h⟩) (ms3_0 ⟨0, h⟩) (hs3_0 ⟨0, h⟩)
      (ms3_1 ⟨0, h⟩) (hs3_1 ⟨0, h⟩) (ms3_2 ⟨0, h⟩) (hs3_2 ⟨0, h⟩) ((hcond3_0 ⟨0, h⟩).mpr rfl) (hblk V c ⟨0, h⟩) (bblk V c ⟨0, h⟩))) (ix2 g j)).trans ?_
    refine (upd_apply V c ⟨0, h⟩ (k3_pay1 (F := Ideal)) g j).trans ?_
    rw [Fin.sum_univ_one]
    rfl
  | n + 1, h, g, j => by
    have hN : cfg3.N = 20 := N_3
    have hB : ¬(⟨n + 1, h⟩ : Fin cfg3.N).val % 20 = 0 := by dsimp only; omega
    refine (congrFun ((outsAt3_B V c ⟨n + 1, h⟩ hB).trans (out_B (F := Ideal) c (grid3.coords ⟨n + 1, h⟩) (ms3_0 ⟨n + 1, h⟩) (hs3_0 ⟨n + 1, h⟩)
      (ms3_1 ⟨n + 1, h⟩) (hs3_1 ⟨n + 1, h⟩) (ms3_2 ⟨n + 1, h⟩) (hs3_2 ⟨n + 1, h⟩) (fun hh => hB ((hcond3_0 ⟨n + 1, h⟩).mp hh))
      (hblk V c ⟨n + 1, h⟩) (bblk V c ⟨n + 1, h⟩) (outsAt3 V c n (Nat.lt_of_succ_lt h)))) (ix2 g j)).trans ?_
    refine (upd_apply V c ⟨n + 1, h⟩ (outsAt3 V c n (Nat.lt_of_succ_lt h)) g j).trans ?_
    rw [outsAt_apply c n (Nat.lt_of_succ_lt h) g j, Fin.sum_univ_castSucc (n := n + 1), add_assoc]
    rfl

end Region

/-! ## The array after the run -/

/-- A sum over the first `n + 1` points, when those are all twenty, is the sum over the twenty. -/
theorem sum_fin_all {M : Type} [AddCommMonoid M] (f : Fin 20 → M) (n : ℕ) (hn : n + 1 = 20) (hlt : ∀ s : Fin (n + 1), s.val < 20) :
    ∑ s : Fin (n + 1), f ⟨s.val, hlt s⟩ = ∑ t : Fin 20, f t :=
  Equiv.sum_comp (finCongr hn) f

section Region
variable (V : (c : Dev nD) → (b : Ref sig .tc) → Buf (Elt Ideal) ((c : Thread nD τ).loc b))

/-- The last point of the grid, the one whose block is written back. -/
def tLast : Fin cfg3.N := ⟨19, by rw [show cfg3.N = 20 from N_3]; decide⟩

/-- The pooled table of the arrays the region finds. -/
abbrev result (c : Dev nD) : FVec Ideal ⟨2, ![128, 64]⟩ .f32 :=
  poolVal (Harr V c) (fun i => Barr V c (ix2 (i 0) (0 : Fin 1)))

/-- After the last point the accumulator is the pooled table: the twenty block sums are the sum over all nodes, an
    indicator times a row is the row where the word names the graph and zero elsewhere, and a sum of such terms is
    the sum over the nodes that pass. -/
theorem last_eq (c : Dev nD) : outsAt3 V c tLast.val tLast.isLt = result V c := by
  funext i
  obtain ⟨g, j, rfl⟩ : ∃ (g : Fin 128) (j : Fin 64), i = ix2 g j := ⟨i 0, i 1, eq_ix2 i⟩
  refine (outsAt_apply V c 19 tLast.isLt g j).trans ?_
  show _ = poolAt (Harr V c) (fun i => Barr V c (ix2 (i 0) (0 : Fin 1))) g j
  unfold poolAt
  refine congrArg (zeroF + ·) ?_
  rw [sum_fin_all (blockSum (Harr V c) (Barr V c) g j) 19 rfl, Finset.sum_filter, sum_blocks]
  refine Finset.sum_congr rfl fun t _ => ?_
  unfold blockSum
  refine Finset.sum_congr rfl fun k _ => ?_
  exact term_eq _ g _

/-- The one write-back, at the last point, writes the pooled table: the output's block is the whole array. -/
theorem flushed_eq (c : Dev nD) (t : Fin cfg3.N) (hf : (cfg3.win 2).flush t = true) :
    (dat3 (F := Ideal) V c).flushed 2 t = ((cfg3.win 2).blk t).view.read (Elt Ideal) (result V c) := by
  have hN : cfg3.N = 20 := N_3
  have h19 : t.val = 19 := by have := (flush3_2 t).mp hf; have := t.isLt; omega
  obtain rfl : t = tLast := Fin.ext h19
  show (cfg3.win 2).cut (grid3.coords tLast) ((dat3 (F := Ideal) V c).after 2 tLast) = _
  rw [after3_2, last_eq]
  have hz' : (fun a => win3_2.index tLast a * main_v41.ty.shape.size a) = fun _ => 0 := funext fun a => by fin_cases a <;> decide
  exact (Memref.read_access_unit_zero (Elt Ideal) main_v41 hz' (fun a => by rw [congrFun hz' a]; simp) (result V c)).symm

/-- The output array after the region's twenty points is the pooled table of the features and graph words it found. -/
theorem arr_eq (c : Dev nD) :
    (dat3 (F := Ideal) V c).arrAt 2 cfg3.N = poolVal (Harr V c) (fun i => Barr V c (ix2 (i 0) (0 : Fin 1))) :=
  (dat3 (F := Ideal) V c).arrAt_eq_of_cover 2 (result V c) (flushed_eq V c) fun i =>
    ⟨tLast, (flush3_2 tLast).mpr rfl, by
      show i ∈ ((View.whole main_v41).slice (win3_2.rect tLast)).set
      rw [View.set_slice_whole, Rect.mem_set_unit]
      intro a
      have h0 : (i 0 : Nat) < 128 := (i 0).isLt
      have h1 : (i 1 : Nat) < 64 := (i 1).isLt
      match a with
      | ⟨0, _⟩ =>
        show win3_2.index tLast 0 * win3_2.size 0 ≤ (i 0 : Nat) ∧ (i 0 : Nat) < win3_2.index tLast 0 * win3_2.size 0 + win3_2.xsize (grid3.coords tLast) 0
        rw [show win3_2.index tLast 0 * win3_2.size 0 = 0 from by decide +kernel, show win3_2.xsize (grid3.coords tLast) 0 = 128 from by decide +kernel]
        omega
      | ⟨1, _⟩ =>
        show win3_2.index tLast 1 * win3_2.size 1 ≤ (i 1 : Nat) ∧ (i 1 : Nat) < win3_2.index tLast 1 * win3_2.size 1 + win3_2.xsize (grid3.coords tLast) 1
        rw [show win3_2.index tLast 1 * win3_2.size 1 = 0 from by decide +kernel, show win3_2.xsize (grid3.coords tLast) 1 = 64 from by decide +kernel]
        omega⟩

end Region

end Cert.Gnn.Pool

end
-- ==== Proof.Net.lean ====
/-
  The whole network as one function of its sixteen arguments.

  Three graph-convolution layers, each fed the neighbour sums of the features going into it; the pooled table of the
  third layer's output; the head's logits; and a row-wise normalisation of the logits. The neighbour sums and the
  normalisation enter as PARAMETERS: `nbr x e` is the table of neighbour sums of the features `x` along the edges `e`,
  `norm z` the normalised logits. The two programs are shown to compute this function at their own neighbour-sum and
  normalisation terms, and those terms are then identified; nothing here looks inside either.
-/
import proofs.«413460_j32590211842293_1_alg».proof.Proof.Spec

noncomputable section

namespace Cert.Gnn

open Idealize.ShloMosaic Idealize.ShloMosaic.ValueIdx

/-- The logits as an array `[128, 3]`. -/
def logitVal (p : FVec Ideal ⟨2, ![128, 64]⟩ .f32) (W1 : FVec Ideal ⟨2, ![64, 64]⟩ .f32) (b1 : FVec Ideal ⟨1, ![64]⟩ .f32)
    (W2 : FVec Ideal ⟨2, ![64, 3]⟩ .f32) (b2 : FVec Ideal ⟨1, ![3]⟩ .f32) : FVec Ideal ⟨2, ![128, 3]⟩ .f32 :=
  fun i => logitAt p W1 b1 W2 b2 (i 0) (i 1)

theorem logitVal_ix2 (p : FVec Ideal ⟨2, ![128, 64]⟩ .f32) (W1 : FVec Ideal ⟨2, ![64, 64]⟩ .f32) (b1 : FVec Ideal ⟨1, ![64]⟩ .f32)
    (W2 : FVec Ideal ⟨2, ![64, 3]⟩ .f32) (b2 : FVec Ideal ⟨1, ![3]⟩ .f32) (g : Fin 128) (c : Fin 3) :
    logitVal p W1 b1 W2 b2 (ix2 g c) = logitAt p W1 b1 W2 b2 g c := rfl

/-- The network's result `[128, 3]`, over a neighbour-sum function `nbr` and a normalisation `norm`. -/
def netVal
    (nbr : FVec Ideal ⟨2, ![100000, 64]⟩ .f32 → IVec ⟨2, ![2, 1200000]⟩ 32 → FVec Ideal ⟨2, ![100000, 64]⟩ .f32)
    (norm : FVec Ideal ⟨2, ![128, 3]⟩ .f32 → FVec Ideal ⟨2, ![128, 3]⟩ .f32)
    (x : FVec Ideal ⟨2, ![100000, 64]⟩ .f32) (e : IVec ⟨2, ![2, 1200000]⟩ 32) (batch : IVec ⟨1, ![100000]⟩ 32)
    (Wr1 : FVec Ideal ⟨2, ![64, 64]⟩ .f32) (br1 : FVec Ideal ⟨1, ![64]⟩ .f32) (Ws1 : FVec Ideal ⟨2, ![64, 64]⟩ .f32)
    (Wr2 : FVec Ideal ⟨2, ![64, 64]⟩ .f32) (br2 : FVec Ideal ⟨1, ![64]⟩ .f32) (Ws2 : FVec Ideal ⟨2, ![64, 64]⟩ .f32)
    (Wr3 : FVec Ideal ⟨2, ![64, 64]⟩ .f32) (br3 : FVec Ideal ⟨1, ![64]⟩ .f32) (Ws3 : FVec Ideal ⟨2, ![64, 64]⟩ .f32)
    (W1 : FVec Ideal ⟨2, ![64, 64]⟩ .f32) (b1 : FVec Ideal ⟨1, ![64]⟩ .f32)
    (W2 : FVec Ideal ⟨2, ![64, 3]⟩ .f32) (b2 : FVec Ideal ⟨1, ![3]⟩ .f32) : FVec Ideal ⟨2, ![128, 3]⟩ .f32 :=
  let h1 := layerVal x (nbr x e) Wr1 br1 Ws1
  let h2 := layerVal h1 (nbr h1 e) Wr2 br2 Ws2
  let h3 := layerVal h2 (nbr h2 e) Wr3 br3 Ws3
  norm (logitVal (poolVal h3 batch) W1 b1 W2 b2)

end Cert.Gnn

end
-- ==== Proof.Norm.lean ====
/-
  The row normalisation of the logits, as each program spells it, and the proof that the two spellings are one
  function on the extended reals.

  For logits `z : [128, 3]` both programs return, at row `g` and class `c`,
      (z[g,c] − M g) − log (Σ_c' exp (z[g,c'] − M g)),
  with `M g` the maximum of row `g`.

  The kernel takes `M` as a lane maximum started from −∞, views the `[128]` result as a column `[128, 1]` by a
  shape cast and spreads the column over the three classes by a vector broadcast; its row sum is a lane sum.
  The reference folds the maximum over the row from −∞ and then takes the maximum of that with −∞ once more, makes
  the column and spreads it by two `broadcast_in_dim`s, and sums the row from the initial value zero.

  The two maxima agree because a fold of `max` from `b` is at least `b`, so a further `max` with `b` changes
  nothing (nothing is used about −∞ beyond its being the starting value on both sides). The two sums agree because
  `0 + s = s`. The two ways to make a column and to spread it read the same entry of their operand. Exponential and
  logarithm are one function on both sides at the ideal values.
-/
import Idealize.ShloMosaic.Lib.ValueIdx
import Idealize.ShloMosaic.Lib.IdealHost
import Idealize.ShloMosaic.Lib.Pipeline.Value
import Idealize.ShloMosaic.PureOps.Ideal
import Idealize.ShloMosaic.PureOps.Ideal.Laws
import Idealize.ShloMosaic.PureOps.Reduce
import Mathlib.Data.Finset.Fold
import proofs.«413460_j32590211842293_1_alg».proof.Proof.Spec

noncomputable section

namespace Cert.Gnn.Norm

open Idealize.ShloMosaic Idealize.ShloMosaic.ValueIdx

/-- The logits' shape, a column's, a row vector's, and a scalar's. -/
abbrev Z : Shape := ⟨2, ![128, 3]⟩
abbrev C : Shape := ⟨2, ![128, 1]⟩
abbrev R : Shape := ⟨1, ![128]⟩
abbrev S0 : Shape := ⟨0, ![]⟩

/-! ## The shape relations the operations below take as evidence -/

theorem red : Z.Reduces [1] R := by decide
theorem redTo : Z.ReducesTo [1] R := by decide
theorem sc : R.ShapeCasts C := by decide
theorem bc : C.Broadcasts Z := by decide
theorem h0 : 0 < S0.numel := by decide
theorem b0 : S0.BroadcastsInDim R (![] : Fin 0 → Fin R.rank) := by decide
theorem b1 : R.BroadcastsInDim C (![0] : Fin 1 → Fin C.rank) := by decide
theorem b2 : C.BroadcastsInDim Z (![0, 1] : Fin 2 → Fin Z.rank) := by decide

/-! ## The pieces, in the kernel's spelling (K) and the reference's (R) -/

/-- The row maximum as a lane maximum from −∞. -/
def rowMaxK (z : FVec Ideal Z .f32) : FVec Ideal R .f32 :=
  multiReduction .maximumf [1] R z 0xFF800000#32 red (.inl rfl) rfl

/-- The row maximum as a fold over the row from −∞, then once more the maximum with −∞. -/
def rowMaxR (z : FVec Ideal Z .f32) : FVec Ideal R .f32 :=
  maximumf (broadcastInDim R ![] b0 (constant (F := Ideal) S0 .f32 0xFF800000#32))
    (Host.reduce FloatOps.maximumf z (constant (F := Ideal) S0 .f32 0xFF800000#32) redTo h0)

/-- The row sum as a lane sum. -/
def rowSumK (e : FVec Ideal Z .f32) : FVec Ideal R .f32 :=
  multiReduction .add [1] R e 0x00000000#32 red (.inl rfl) rfl

/-- The row sum from the initial value zero. -/
def rowSumR (e : FVec Ideal Z .f32) : FVec Ideal R .f32 :=
  Host.reduceAdd (F := Ideal) e (constant (F := Ideal) S0 .f32 0x00000000#32) redTo h0

/-- A row vector `[128]` as a column `[128, 1]`: by a shape cast, or by a broadcast along axis 0. -/
def colK {α : Type} (v : R.Idx → α) : C.Idx → α := shapeCast C v sc
def colR {α : Type} (v : R.Idx → α) : C.Idx → α := broadcastInDim C ![0] b1 v

/-- A column `[128, 1]` spread over the three classes: by a vector broadcast, or by a broadcast along both axes. -/
def spreadK {α : Type} (w : C.Idx → α) : Z.Idx → α := broadcastTo Z w bc
def spreadR {α : Type} (w : C.Idx → α) : Z.Idx → α := broadcastInDim Z ![0, 1] b2 w

/-- The logits minus their row maximum. -/
def shiftK (z : FVec Ideal Z .f32) : FVec Ideal Z .f32 := subf z (spreadK (colK (rowMaxK z)))
def shiftR (z : FVec Ideal Z .f32) : FVec Ideal Z .f32 := subf z (spreadR (colR (rowMaxR z)))

/-- The normalised logits in the kernel's spelling. -/
def normK (z : FVec Ideal Z .f32) : FVec Ideal Z .f32 :=
  subf (shiftK z) (spreadK (log (colK (rowSumK (exp (shiftK z))))))

/-- The normalised logits in the reference's spelling. -/
def normR (z : FVec Ideal Z .f32) : FVec Ideal Z .f32 :=
  subf (shiftR z) (spreadR (Host.log (colR (rowSumR (Host.exp (shiftR z))))))

/-! ## The pieces agree -/

/-- Both ways to make a column read entry `g` of the row vector at `(g, 0)`. -/
theorem colK_eq_colR {α : Type} (v : R.Idx → α) : colK v = colR v := by
  funext j
  have hj1 : (j 1).val < 1 := (j 1).isLt
  show shapeCast C v sc j = broadcastInDim C ![0] b1 v j
  refine (shapeCast_apply v sc j (ix1 (j 0)) ?_).trans (broadcastInDim_apply ![0] b1 v j (ix1 (j 0)) ?_).symm
  · rw [Shape.rowMajor_val_one, Shape.rowMajor_val_two]
    show (j 0).val = (j 0).val * 1 + (j 1).val
    omega
  · intro a
    match a with
    | ⟨0, _⟩ => rfl

/-- Both ways to spread a column read its entry `(g, 0)` at `(g, c)`. -/
theorem spreadK_eq_spreadR {α : Type} (w : C.Idx → α) : spreadK w = spreadR w := by
  funext j
  show broadcastTo Z w bc j = broadcastInDim Z ![0, 1] b2 w j
  refine (broadcastTo_apply w bc j (ix2 (j 0) (0 : Fin 1)) ?_).trans
    (broadcastInDim_apply ![0, 1] b2 w j (ix2 (j 0) (0 : Fin 1)) ?_).symm
  · intro a
    match a with
    | ⟨0, _⟩ => rfl
    | ⟨1, _⟩ => rfl
  · intro a
    match a with
    | ⟨0, _⟩ => rfl
    | ⟨1, _⟩ => rfl

/-- The two row maxima: each is the fold of `max` over the row's three entries from the value of −∞'s word; the
    reference's further `max` with that value changes nothing, since the fold is at least its starting value. -/
theorem rowMaxK_eq_rowMaxR (z : FVec Ideal Z .f32) : rowMaxK z = rowMaxR z := by
  funext j
  have hK : rowMaxK z j = Finset.univ.fold max (Ideal.ofBits .f32 0xFF800000#32) (z ∘ red.lift j) :=
    Ideal.multiReduction_maximumf_single z 0xFF800000#32 red (.inl rfl) rfl j
  have hR : Host.reduce FloatOps.maximumf z (constant (F := Ideal) S0 .f32 0xFF800000#32) redTo h0 j
      = Finset.univ.fold max (Ideal.ofBits .f32 0xFF800000#32) (z ∘ red.lift j) :=
    Host.reduce_eq_fold_single FloatOps.maximumf z _ redTo red h0 j
  show rowMaxK z j = max (broadcastInDim R ![] b0 (constant (F := Ideal) S0 .f32 0xFF800000#32) j)
      (Host.reduce FloatOps.maximumf z (constant (F := Ideal) S0 .f32 0xFF800000#32) redTo h0 j)
  rw [hK, hR, broadcastInDim_scalar_apply]
  exact (max_eq_right ((Finset.le_fold_max _).mpr (Or.inl le_rfl))).symm

/-- The two row sums: the reference's starts from zero. -/
theorem rowSumK_eq_rowSumR (e : FVec Ideal Z .f32) : rowSumK e = rowSumR e := by
  funext j
  have hK : rowSumK e j = ∑ k : Fin 3, e (red.lift j k) :=
    Ideal.multiReduction_add_single e 0x00000000#32 red (.inl rfl) rfl j
  have hR : rowSumR e j = Ideal.ofBits .f32 0x00000000#32 + ∑ k : Fin 3, e (red.lift j k) :=
    Ideal.hostReduceAdd_single redTo red e _ j
  rw [hK, hR, Ideal.ofBits_zero_f32, zero_add]

theorem shiftK_eq_shiftR (z : FVec Ideal Z .f32) : shiftK z = shiftR z := by
  unfold shiftK shiftR
  rw [rowMaxK_eq_rowMaxR, colK_eq_colR, spreadK_eq_spreadR]

/-- The two spellings of the row normalisation are one function. -/
theorem normK_eq_normR (z : FVec Ideal Z .f32) : normK z = normR z := by
  unfold normK normR
  rw [shiftK_eq_shiftR, rowSumK_eq_rowSumR, colK_eq_colR, spreadK_eq_spreadR]
  rfl

end Cert.Gnn.Norm

end
-- ==== Proof.Head.lean ====
/-
  The head of the network as the last pipelined call computes it, read off that call's block data.

  The call has one grid point and six windows, each the whole of its array: the pooled table `[128, 64]`, the first
  weight matrix `[64, 64]`, the first bias as one row `[1, 64]`, the second weight matrix `[64, 3]`, the second bias
  as one row `[1, 3]`, and the result `[128, 3]`. So every block is its array, the one point writes the whole result
  back, and the result array after the call is the body's value on the five input arrays.

  The body's value splits in two. Up to the logits it is, index by index,
      logit[g, c] = Σ_k max (Σ_k' p[g, k'] · W1[k', k] + b1[k], 0) · W2[k, c] + b2[c]:
  two products of rows by columns into a zero accumulator, each followed by a bias row broadcast down the rows, the first
  also by a maximum with the zero splat; the changes of float format in between are the identity at the exact values.
  From the logits on it is the row normalisation in the kernel's spelling, which is carried as one function and never
  opened here.
-/
import proofs.«413460_j32590211842293_1_alg».proof.Proof.Gen.KernelIdeal.Frame
import proofs.«413460_j32590211842293_1_alg».proof.Proof.Net
import proofs.«413460_j32590211842293_1_alg».proof.Proof.Norm
import proofs.«413460_j32590211842293_1_alg».proof.Proof.LibMatmulRows
import Idealize.ShloMosaic.Lib.Pipeline.Value

noncomputable section

namespace Cert.Gnn.Head

open Cert.KernelIdeal Cert.KernelIdeal.Gen Idealize.ShloMosaic Idealize.ShloMosaic.ValueIdx Idealize.ShloMosaic.TcCoe Idealize.SL.Sem
open Idealize.ShloMosaic.Pipeline (Dat)

/-! ## The body's value on five arrays -/

section Payload

variable (x0 : FVec Ideal S128x64 .f32) (x1 : FVec Ideal S64x64 .f32) (x2 : FVec Ideal S1x64 .f32)
  (x3 : FVec Ideal S64x3 .f32) (x4 : FVec Ideal S1x3 .f32)

/-- The hidden layer as the body writes it: the product into the zero splat, the bias row broadcast down the rows,
    the maximum with the zero splat. -/
def hiddenK : FVec Ideal S128x64 .f32 :=
  maximumf
    (addf
      (matmul dot_S128x64_S64x64_S128x64_1_0_0_1_n_n none
        (truncf .bf16 (shapeCast S128x64 x0 Gen.shapeCasts_S128x64_S128x64) Gen.bitsLt_bf16_f32)
        (truncf .bf16 x1 Gen.bitsLt_bf16_f32) (constant S128x64 .f32 0x00000000#32))
      (broadcastTo S128x64 (shapeCast S1x64 x2 Gen.shapeCasts_S1x64_S1x64) Gen.broadcasts_S1x64_S128x64))
    (broadcast S128x64 (Scalar.ofBits .f32 0x00000000#32))

/-- The logits as the body writes them. -/
def logitsK : FVec Ideal S128x3 .f32 :=
  addf
    (matmul dot_S128x64_S64x3_S128x3_1_0_0_1_n_n none
      (truncf .bf16 (hiddenK x0 x1 x2) Gen.bitsLt_bf16_f32) (truncf .bf16 x3 Gen.bitsLt_bf16_f32)
      (constant S128x3 .f32 0x00000000#32))
    (broadcastTo S128x3 (shapeCast S1x3 x4 Gen.shapeCasts_S1x3_S1x3) Gen.broadcasts_S1x3_S128x3)

/-- The body's value is the row normalisation, in the kernel's spelling, of its logits. -/
theorem pay_split : k4_pay1 (F := Ideal) x0 x1 x2 x3 x4 = Norm.normK (logitsK x0 x1 x2 x3 x4) := rfl

/-- The hidden layer at unit `j` of graph `g`. -/
theorem hiddenK_apply (g : Fin 128) (j : Fin 64) :
    hiddenK x0 x1 x2 (ix2 g j) = hiddenAt x0 x1 (fun i => x2 (ix2 (0 : Fin 1) (i 0))) g j := by
  have hm : FloatOps.matmul dot_S128x64_S64x64_S128x64_1_0_0_1_n_n none
        (truncf .bf16 x0 Gen.bitsLt_bf16_f32) (truncf .bf16 x1 Gen.bitsLt_bf16_f32)
        (constant (F := Ideal) S128x64 .f32 0x00000000#32) (ix2 g j)
      = ∑ k : Fin 64, x0 (ix2 g k) * x1 (ix2 k j) :=
    Cert.Gcn.Lib.matmul_rows_apply dot_S128x64_S64x64_S128x64_1_0_0_1_n_n.wf dot_S128x64_S64x64_S128x64_1_0_0_1_n_n rfl none
      (truncf .bf16 x0 Gen.bitsLt_bf16_f32) (truncf .bf16 x1 Gen.bitsLt_bf16_f32) g j
  have hb : broadcastTo S128x64 x2 Gen.broadcasts_S1x64_S128x64 (ix2 g j) = x2 (ix2 (0 : Fin 1) j) :=
    broadcastTo_apply x2 Gen.broadcasts_S1x64_S128x64 (ix2 g j) (ix2 (0 : Fin 1) j)
      (fun a => match a with | ⟨0, _⟩ => rfl | ⟨1, _⟩ => rfl)
  unfold hiddenK hiddenAt
  rw [shapeCast_self, shapeCast_self]
  exact congrArg₂ max (congrArg₂ (· + ·) hm hb) rfl

/-- The logits at class `cl` of graph `g`. -/
theorem logitsK_apply (g : Fin 128) (cl : Fin 3) :
    logitsK x0 x1 x2 x3 x4 (ix2 g cl)
      = logitAt x0 x1 (fun i => x2 (ix2 (0 : Fin 1) (i 0))) x3 (fun i => x4 (ix2 (0 : Fin 1) (i 0))) g cl := by
  have hm : FloatOps.matmul dot_S128x64_S64x3_S128x3_1_0_0_1_n_n none
        (truncf .bf16 (hiddenK x0 x1 x2) Gen.bitsLt_bf16_f32) (truncf .bf16 x3 Gen.bitsLt_bf16_f32)
        (constant (F := Ideal) S128x3 .f32 0x00000000#32) (ix2 g cl)
      = ∑ k : Fin 64, hiddenAt x0 x1 (fun i => x2 (ix2 (0 : Fin 1) (i 0))) g k * x3 (ix2 k cl) :=
    (Cert.Gcn.Lib.matmul_rows_apply dot_S128x64_S64x3_S128x3_1_0_0_1_n_n.wf dot_S128x64_S64x3_S128x3_1_0_0_1_n_n rfl none
      (truncf .bf16 (hiddenK x0 x1 x2) Gen.bitsLt_bf16_f32) (truncf .bf16 x3 Gen.bitsLt_bf16_f32) g cl).trans
      (Finset.sum_congr rfl fun k _ => congrArg (· * x3 (ix2 k cl)) (hiddenK_apply x0 x1 x2 g k))
  have hb : broadcastTo S128x3 x4 Gen.broadcasts_S1x3_S128x3 (ix2 g cl) = x4 (ix2 (0 : Fin 1) cl) :=
    broadcastTo_apply x4 Gen.broadcasts_S1x3_S128x3 (ix2 g cl) (ix2 (0 : Fin 1) cl)
      (fun a => match a with | ⟨0, _⟩ => rfl | ⟨1, _⟩ => rfl)
  unfold logitsK logitAt
  rw [shapeCast_self]
  exact congrArg₂ (· + ·) hm hb

/-- So the body's logits are the network's, the two bias rows read as vectors. -/
theorem logitsK_eq :
    logitsK x0 x1 x2 x3 x4
      = logitVal x0 x1 (fun i => x2 (ix2 (0 : Fin 1) (i 0))) x3 (fun i => x4 (ix2 (0 : Fin 1) (i 0))) := by
  funext i
  obtain ⟨g, cl, rfl⟩ : ∃ (g : Fin 128) (cl : Fin 3), i = ix2 g cl := ⟨i 0, i 1, eq_ix2 i⟩
  rw [logitsK_apply, logitVal_ix2]

/-- The body's value on five arrays. -/
theorem pay_eq :
    k4_pay1 (F := Ideal) x0 x1 x2 x3 x4
      = Norm.normK (logitVal x0 x1 (fun i => x2 (ix2 (0 : Fin 1) (i 0))) x3 (fun i => x4 (ix2 (0 : Fin 1) (i 0)))) :=
  (pay_split x0 x1 x2 x3 x4).trans (congrArg Norm.normK (logitsK_eq x0 x1 x2 x3 x4))

end Payload

/-! ## From the one block to the array -/

variable (V : (c : Dev nD) → (b : Ref sig .tc) → Buf (Elt Ideal) ((c : Thread nD τ).loc b))

/-- The five input arrays as the call finds them, at their array types. -/
abbrev pooled (c : Dev nD) : FVec Ideal S128x64 .f32 := V c (Pipeline.arrRef spec4 0)
abbrev wFc1 (c : Dev nD) : FVec Ideal S64x64 .f32 := V c (Pipeline.arrRef spec4 1)
abbrev bFc1 (c : Dev nD) : FVec Ideal S1x64 .f32 := V c (Pipeline.arrRef spec4 2)
abbrev wFc2 (c : Dev nD) : FVec Ideal S64x3 .f32 := V c (Pipeline.arrRef spec4 3)
abbrev bFc2 (c : Dev nD) : FVec Ideal S1x3 .f32 := V c (Pipeline.arrRef spec4 4)

theorem pooled_eq (c : Dev nD) : pooled V c = V c (Pipeline.arrRef spec4 0) := rfl
theorem wFc1_eq (c : Dev nD) : wFc1 V c = V c (Pipeline.arrRef spec4 1) := rfl
theorem bFc1_eq (c : Dev nD) : bFc1 V c = V c (Pipeline.arrRef spec4 2) := rfl
theorem wFc2_eq (c : Dev nD) : wFc2 V c = V c (Pipeline.arrRef spec4 3) := rfl
theorem bFc2_eq (c : Dev nD) : bFc2 V c = V c (Pipeline.arrRef spec4 4) := rfl

/-- What the result array ends holding: the normalised logits of the five arrays. -/
abbrev headVal (c : Dev nD) : FVec Ideal S128x3 .f32 :=
  Norm.normK (logitVal (pooled V c) (wFc1 V c) (fun i => bFc1 V c (ix2 (0 : Fin 1) (i 0))) (wFc2 V c)
    (fun i => bFc2 V c (ix2 (0 : Fin 1) (i 0))))

theorem hz : (![0, 0] : Fin 2 → Nat) = fun _ => 0 := funext fun a => by fin_cases a <;> rfl

/-- Every window's block index is zero on both axes at every point: decided over the grid. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Each input window's block is its whole array. -/
theorem blk0 (c : Dev nD) (t : Fin cfg4.N) : iblk4 V c 0 t = pooled V c := by
  obtain ⟨e0, e1, -⟩ := idx_facts t
  funext y
  show V c (Pipeline.arrRef spec4 0) (((cfg4.win 0).blk t).view.emb y) = V c (Pipeline.arrRef spec4 0) y
  refine congrArg _ (funext fun a => Fin.ext ?_)
  match a with
  | ⟨0, _⟩ => show win4_0.index t (0 : Fin 2) * 128 + 1 * (y 0).val = (y 0).val; omega
  | ⟨1, _⟩ => show win4_0.index t (1 : Fin 2) * 64 + 1 * (y 1).val = (y 1).val; omega

theorem blk1 (c : Dev nD) (t : Fin cfg4.N) : iblk4 V c 1 t = wFc1 V c := by
  obtain ⟨-, -, e0, e1, -⟩ := idx_facts t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 64 + 1 * (y 1).val = (y 1).val; omega

theorem blk2 (c : Dev nD) (t : Fin cfg4.N) : iblk4 V c 2 t = bFc1 V c := by
  obtain ⟨-, -, -, -, e0, e1, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

theorem blk3 (c : Dev nD) (t : Fin cfg4.N) : iblk4 V c 3 t = wFc2 V c := by
  obtain ⟨-, -, -, -, -, -, e0, e1, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 3 + 1 * (y 1).val = (y 1).val; omega

theorem blk4 (c : Dev nD) (t : Fin cfg4.N) : iblk4 V c 4 t = bFc2 V c := by
  obtain ⟨-, -, -, -, -, -, -, -, e0, e1, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 3 + 1 * (y 1).val = (y 1).val; omega

/-- What the point writes back is the result window's block of `headVal`. -/
theorem flushed_eq (c : Dev nD) (t : Fin cfg4.N) :
    (dat4 (F := Ideal) V c).flushed 5 t = ((cfg4.win 5).blk t).view.read (Elt Ideal) (headVal V c) := by
  show (cfg4.win 5).cut (grid4.coords t) ((dat4 (F := Ideal) V c).after 5 t) = _
  rw [after4_5]
  unfold out4_5
  rw [View.canon_unit_zero hz]
  simp only [View.ld_unit_zero (S := S128x64) hz, View.ld_unit_zero (S := S64x64) hz, View.ld_unit_zero (S := S1x64) hz,
    View.ld_unit_zero (S := S64x3) hz, View.ld_unit_zero (S := S1x3) hz]
  rw [blk0 V c t, blk1 V c t, blk2 V c t, blk3 V c t, blk4 V c t,
    pay_eq (pooled V c) (wFc1 V c) (bFc1 V c) (wFc2 V c) (bFc2 V c)]
  obtain ⟨-, -, -, -, -, -, -, -, -, -, e0, e1⟩ := idx_facts t
  show (cfg4.win 5).cut (grid4.coords t) (headVal V c) = ((cfg4.win 5).blk t).view.read (Elt Ideal) (headVal V c)
  generalize headVal V c = Gv
  funext y
  show Gv y = Gv (((cfg4.win 5).blk t).view.emb y)
  refine congrArg Gv (funext fun a => Fin.ext ?_)
  match a with
  | ⟨0, _⟩ => show (y 0).val = win4_5.index t (0 : Fin 2) * 128 + 1 * (y 0).val; omega
  | ⟨1, _⟩ => show (y 1).val = win4_5.index t (1 : Fin 2) * 3 + 1 * (y 1).val; omega

/-- An index of the result array is in the point's block iff each coordinate is in the block's range on its axis. -/
theorem mem_blk (t : Fin cfg4.N) (i : S128x3.Idx) :
    i ∈ ((cfg4.win 5).blk t).view.set ↔ ∀ a : Fin 2, win4_5.index t a * S128x3.size a ≤ (i a).val
      ∧ (i a).val < win4_5.index t a * S128x3.size a + S128x3.size a := by
  show i ∈ ((View.whole main_v44).slice (win4_5.rect t)).set ↔ _
  rw [View.set_slice_whole, Rect.mem_set_unit]
  exact Iff.rfl

/-- The one point's block covers the result array. -/
theorem cover (i : S128x3.Idx) :
    ∃ t : Fin cfg4.N, (cfg4.win 5).flush t = true ∧ i ∈ ((cfg4.win 5).blk t).view.set := by
  refine ⟨t4_0, flush4_5 t4_0, ?_⟩
  obtain ⟨-, -, -, -, -, -, -, -, -, -, e0, e1⟩ := idx_facts t4_0
  have hi0 : (i 0).val < 128 := (i 0).isLt
  have hi1 : (i 1).val < 3 := (i 1).isLt
  rw [mem_blk]
  intro a
  match a with
  | ⟨0, _⟩ => show win4_5.index t4_0 (0 : Fin 2) * 128 ≤ (i 0).val ∧ (i 0).val < win4_5.index t4_0 (0 : Fin 2) * 128 + 128; omega
  | ⟨1, _⟩ => show win4_5.index t4_0 (1 : Fin 2) * 3 ≤ (i 1).val ∧ (i 1).val < win4_5.index t4_0 (1 : Fin 2) * 3 + 3; omega

/-- The result array after the call: the row normalisation, in the kernel's spelling, of the network's logits of the
    pooled table, the two weight matrices, and the two bias rows read as vectors. -/
theorem arr_eq (c : Dev nD) :
    (dat4 (F := Ideal) V c).arrAt 5 cfg4.N
      = Norm.normK (logitVal (pooled V c) (wFc1 V c) (fun i => bFc1 V c (ix2 (0 : Fin 1) (i 0))) (wFc2 V c)
          (fun i => bFc2 V c (ix2 (0 : Fin 1) (i 0)))) :=
  (dat4 (F := Ideal) V c).arrAt_eq_of_cover 5 (headVal V c) (fun t _ => flushed_eq V c t) cover

end Cert.Gnn.Head

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KernelValue.lean ====
/-
  The idealized kernel program's result as the network function of its sixteen launched arguments.

  The run is five stretches of host operations, each followed by a pipelined region. Walking the buffer contents from
  the launch to the return: the first stretch makes the neighbour sums of the launched features and lays the first bias
  out as a row, and the first region leaves the first layer in its output array; the second and third stretches and
  regions do the same with the layer before in place of the features; the fourth stretch lays the graph words out as a
  column and the fourth region leaves the pooled table; the fifth stretch lays the head's two biases out as rows and the
  fifth region leaves the normalised logits. Each region's array is what that region's value theorem says of the
  contents it was entered with, and each of those contents is an argument still as launched, an earlier region's
  output still in place, a neighbour-sum table, or a reshaped argument read at an index.
-/
import proofs.«413460_j32590211842293_1_alg».proof.Proof.KernelRun
import proofs.«413460_j32590211842293_1_alg».proof.Proof.Carry
import proofs.«413460_j32590211842293_1_alg».proof.Proof.Nbr
import proofs.«413460_j32590211842293_1_alg».proof.Proof.Layer0
import proofs.«413460_j32590211842293_1_alg».proof.Proof.Layer1
import proofs.«413460_j32590211842293_1_alg».proof.Proof.Layer2
import proofs.«413460_j32590211842293_1_alg».proof.Proof.Pool
import proofs.«413460_j32590211842293_1_alg».proof.Proof.Head
import proofs.«413460_j32590211842293_1_alg».proof.Proof.LibReshape
import proofs.«413460_j32590211842293_1_alg».proof.Proof.Net
import proofs.«413460_j32590211842293_1_alg».proof.Proof.Norm

set_option maxRecDepth 16384

noncomputable section

namespace Cert.KernelIdeal.Gen

open Idealize.ShloMosaic Idealize.ShloMosaic.TcCoe Idealize.ShloMosaic.Tactic Idealize.SL.Sem Idealize.ShloMosaic.StableHlo Idealize.ShloMosaic.ValueIdx

variable (m : (ℓ : Loc nD τ sig) → Buf (Elt Ideal) ℓ) (ρ : Dev nD → PrngReg)

/-! ## The launched arguments at their array types, and the stages of the network over them -/

abbrev aX (c : Dev nD) : FVec Ideal ⟨2, ![100000, 64]⟩ .f32 := m ((c : Thread nD τ).loc main_arg0)
abbrev aE (c : Dev nD) : IVec ⟨2, ![2, 1200000]⟩ 32 := m ((c : Thread nD τ).loc main_arg1)
abbrev aBt (c : Dev nD) : IVec ⟨1, ![100000]⟩ 32 := m ((c : Thread nD τ).loc main_arg2)
abbrev aWr1 (c : Dev nD) : FVec Ideal ⟨2, ![64, 64]⟩ .f32 := m ((c : Thread nD τ).loc main_arg3)
abbrev aBr1 (c : Dev nD) : FVec Ideal ⟨1, ![64]⟩ .f32 := m ((c : Thread nD τ).loc main_arg4)
abbrev aWs1 (c : Dev nD) : FVec Ideal ⟨2, ![64, 64]⟩ .f32 := m ((c : Thread nD τ).loc main_arg5)
abbrev aWr2 (c : Dev nD) : FVec Ideal ⟨2, ![64, 64]⟩ .f32 := m ((c : Thread nD τ).loc main_arg6)
abbrev aBr2 (c : Dev nD) : FVec Ideal ⟨1, ![64]⟩ .f32 := m ((c : Thread nD τ).loc main_arg7)
abbrev aWs2 (c : Dev nD) : FVec Ideal ⟨2, ![64, 64]⟩ .f32 := m ((c : Thread nD τ).loc main_arg8)
abbrev aWr3 (c : Dev nD) : FVec Ideal ⟨2, ![64, 64]⟩ .f32 := m ((c : Thread nD τ).loc main_arg9)
abbrev aBr3 (c : Dev nD) : FVec Ideal ⟨1, ![64]⟩ .f32 := m ((c : Thread nD τ).loc main_arg10)
abbrev aWs3 (c : Dev nD) : FVec Ideal ⟨2, ![64, 64]⟩ .f32 := m ((c : Thread nD τ).loc main_arg11)
abbrev aW1 (c : Dev nD) : FVec Ideal ⟨2, ![64, 64]⟩ .f32 := m ((c : Thread nD τ).loc main_arg12)
abbrev aB1 (c : Dev nD) : FVec Ideal ⟨1, ![64]⟩ .f32 := m ((c : Thread nD τ).loc main_arg13)
abbrev aW2 (c : Dev nD) : FVec Ideal ⟨2, ![64, 3]⟩ .f32 := m ((c : Thread nD τ).loc main_arg14)
abbrev aB2 (c : Dev nD) : FVec Ideal ⟨1, ![3]⟩ .f32 := m ((c : Thread nD τ).loc main_arg15)

/-- The first, second and third layers and the pooled table, of the launched arguments. -/
abbrev lay1 (c : Dev nD) : FVec Ideal ⟨2, ![100000, 64]⟩ .f32 :=
  Cert.Gnn.layerVal (aX m c) (nbrK (aX m c) (aE m c)) (aWr1 m c) (aBr1 m c) (aWs1 m c)
abbrev lay2 (c : Dev nD) : FVec Ideal ⟨2, ![100000, 64]⟩ .f32 :=
  Cert.Gnn.layerVal (lay1 m c) (nbrK (lay1 m c) (aE m c)) (aWr2 m c) (aBr2 m c) (aWs2 m c)
abbrev lay3 (c : Dev nD) : FVec Ideal ⟨2, ![100000, 64]⟩ .f32 :=
  Cert.Gnn.layerVal (lay2 m c) (nbrK (lay2 m c) (aE m c)) (aWr3 m c) (aBr3 m c) (aWs3 m c)
abbrev pooledTab (c : Dev nD) : FVec Ideal ⟨2, ![128, 64]⟩ .f32 := Cert.Gnn.poolVal (lay3 m c) (aBt m c)

/-! ## The reshaped arguments, as each stretch leaves them -/

/-- The bias window main_v14: the vector main_arg4, as the stretch found it, laid out as a row. -/
theorem W1_main_v14 (c : Dev nD) :
    (W1 (F := Ideal) m ρ c (Proc.devRef .tc main_v14) : FVec Ideal S1x64 .f32)
      = shapeCast S1x64 (W0 (F := Ideal) m ρ c (Proc.devRef .tc main_arg4) : FVec Ideal S64 .f32) shapeCasts_S64_S1x64 := by
  show StableHlo.after hostOps0 (W0 m ρ c) (Proc.devRef .tc main_v14) = _
  after_results
  rfl

/-- The bias window main_v26: the vector main_arg7, as the stretch found it, laid out as a row. -/
theorem W3_main_v26 (c : Dev nD) :
    (W3 (F := Ideal) m ρ c (Proc.devRef .tc main_v26) : FVec Ideal S1x64 .f32)
      = shapeCast S1x64 (W2 (F := Ideal) m ρ c (Proc.devRef .tc main_arg7) : FVec Ideal S64 .f32) shapeCasts_S64_S1x64 := by
  show StableHlo.after hostOps1 (W2 m ρ c) (Proc.devRef .tc main_v26) = _
  after_results
  rfl

/-- The bias window main_v38: the vector main_arg10, as the stretch found it, laid out as a row. -/
theorem W5_main_v38 (c : Dev nD) :
    (W5 (F := Ideal) m ρ c (Proc.devRef .tc main_v38) : FVec Ideal S1x64 .f32)
      = shapeCast S1x64 (W4 (F := Ideal) m ρ c (Proc.devRef .tc main_arg10) : FVec Ideal S64 .f32) shapeCasts_S64_S1x64 := by
  show StableHlo.after hostOps2 (W4 m ρ c) (Proc.devRef .tc main_v38) = _
  after_results
  rfl

/-- The bias window main_v42: the vector main_arg13, as the stretch found it, laid out as a row. -/
theorem W9_main_v42 (c : Dev nD) :
    (W9 (F := Ideal) m ρ c (Proc.devRef .tc main_v42) : FVec Ideal S1x64 .f32)
      = shapeCast S1x64 (W8 (F := Ideal) m ρ c (Proc.devRef .tc main_arg13) : FVec Ideal S64 .f32) shapeCasts_S64_S1x64 := by
  show StableHlo.after hostOps4 (W8 m ρ c) (Proc.devRef .tc main_v42) = _
  after_results
  rfl

/-- The bias window main_v43: the vector main_arg15, as the stretch found it, laid out as a row. -/
theorem W9_main_v43 (c : Dev nD) :
    (W9 (F := Ideal) m ρ c (Proc.devRef .tc main_v43) : FVec Ideal S1x3 .f32)
      = shapeCast S1x3 (W8 (F := Ideal) m ρ c (Proc.devRef .tc main_arg15) : FVec Ideal S3 .f32) shapeCasts_S3_S1x3 := by
  show StableHlo.after hostOps4 (W8 m ρ c) (Proc.devRef .tc main_v43) = _
  after_results
  rfl

/-- The graph words as a column, as the fourth stretch leaves them. -/
theorem W7_main_v40 (c : Dev nD) :
    (W7 (F := Ideal) m ρ c (Proc.devRef .tc main_v40) : IVec S100000x1 32)
      = shapeCast S100000x1 (W6 (F := Ideal) m ρ c (Proc.devRef .tc main_arg2) : IVec S100000 32) shapeCasts_S100000_S100000x1 := by
  show StableHlo.after hostOps3 (W6 m ρ c) (Proc.devRef .tc main_v40) = _
  after_results
  rfl

/-! ## The five regions' arrays -/

/-- Region 0 leaves the first layer. -/
theorem W2_main_v15 (c : Dev nD) :
    (W2 (F := Ideal) m ρ c (Proc.devRef .tc main_v15) : FVec Ideal S100000x64 .f32) = lay1 m c := by
  refine (W2_arr m ρ c 5).trans ((Cert.Gnn.Layer0.arr_eq (V1 m ρ) c).trans ?_)
  have hx : Cert.Gnn.Layer0.xArr (V1 m ρ) c = aX m c := W1_main_arg0 m ρ c
  have ha : Cert.Gnn.Layer0.aggArr (V1 m ρ) c = nbrK (aX m c) (aE m c) := W1_main_v13 m ρ c
  have hr : Cert.Gnn.Layer0.wrArr (V1 m ρ) c = aWr1 m c := W1_main_arg3 m ρ c
  have hs : Cert.Gnn.Layer0.wsArr (V1 m ρ) c = aWs1 m c := W1_main_arg5 m ρ c
  have hb : (fun i : (⟨1, ![64]⟩ : Shape).Idx => Cert.Gnn.Layer0.biasArr (V1 m ρ) c (ix2 (0 : Fin 1) (i 0)))
      = (m ((c : Thread nD τ).loc main_arg4) : FVec Ideal ⟨1, ![64]⟩ .f32) := by
    funext i
    obtain ⟨k, rfl⟩ : ∃ k : Fin 64, i = ix1 k := ⟨i 0, eq_ix1 i⟩
    show (W1 (F := Ideal) m ρ c (Proc.devRef .tc main_v14) : FVec Ideal S1x64 .f32) (ix2 (0 : Fin 1) k) = _
    rw [W1_main_v14 m ρ c]
    refine (Cert.Rgcn.Lib.row_of_vec_apply (n := 64) (W0 (F := Ideal) m ρ c (Proc.devRef .tc main_arg4)) shapeCasts_S64_S1x64 k).trans ?_
    exact congrFun (W0_main_arg4 m ρ c) (ix1 k)
  rw [hx, ha, hr, hs, hb]

/-- Region 1 leaves the second layer. -/
theorem W4_main_v27 (c : Dev nD) :
    (W4 (F := Ideal) m ρ c (Proc.devRef .tc main_v27) : FVec Ideal S100000x64 .f32) = lay2 m c := by
  refine (W4_arr m ρ c 5).trans ((Cert.Gnn.Layer1.arr_eq (V3 m ρ) c).trans ?_)
  have hx : Cert.Gnn.Layer1.xArr (V3 m ρ) c = lay1 m c := (W3_main_v15 m ρ c).trans (W2_main_v15 m ρ c)
  have ha : Cert.Gnn.Layer1.aggArr (V3 m ρ) c = nbrK (lay1 m c) (aE m c) := by
    refine (W3_main_v25 m ρ c).trans ?_
    rw [W2_main_v15 m ρ c]
  have hr : Cert.Gnn.Layer1.wrArr (V3 m ρ) c = aWr2 m c := W3_main_arg6 m ρ c
  have hs : Cert.Gnn.Layer1.wsArr (V3 m ρ) c = aWs2 m c := W3_main_arg8 m ρ c
  have hb : (fun i : (⟨1, ![64]⟩ : Shape).Idx => Cert.Gnn.Layer1.biasArr (V3 m ρ) c (ix2 (0 : Fin 1) (i 0)))
      = (m ((c : Thread nD τ).loc main_arg7) : FVec Ideal ⟨1, ![64]⟩ .f32) := by
    funext i
    obtain ⟨k, rfl⟩ : ∃ k : Fin 64, i = ix1 k := ⟨i 0, eq_ix1 i⟩
    show (W3 (F := Ideal) m ρ c (Proc.devRef .tc main_v26) : FVec Ideal S1x64 .f32) (ix2 (0 : Fin 1) k) = _
    rw [W3_main_v26 m ρ c]
    refine (Cert.Rgcn.Lib.row_of_vec_apply (n := 64) (W2 (F := Ideal) m ρ c (Proc.devRef .tc main_arg7)) shapeCasts_S64_S1x64 k).trans ?_
    exact congrFun (W2_main_arg7 m ρ c) (ix1 k)
  rw [hx, ha, hr, hs, hb]

/-- Region 2 leaves the third layer. -/
theorem W6_main_v39 (c : Dev nD) :
    (W6 (F := Ideal) m ρ c (Proc.devRef .tc main_v39) : FVec Ideal S100000x64 .f32) = lay3 m c := by
  refine (W6_arr m ρ c 5).trans ((Cert.Gnn.Layer2.arr_eq (V5 m ρ) c).trans ?_)
  have hx : Cert.Gnn.Layer2.xArr (V5 m ρ) c = lay2 m c := (W5_main_v27 m ρ c).trans (W4_main_v27 m ρ c)
  have ha : Cert.Gnn.Layer2.aggArr (V5 m ρ) c = nbrK (lay2 m c) (aE m c) := by
    refine (W5_main_v37 m ρ c).trans ?_
    rw [W4_main_v27 m ρ c]
  have hr : Cert.Gnn.Layer2.wrArr (V5 m ρ) c = aWr3 m c := W5_main_arg9 m ρ c
  have hs : Cert.Gnn.Layer2.wsArr (V5 m ρ) c = aWs3 m c := W5_main_arg11 m ρ c
  have hb : (fun i : (⟨1, ![64]⟩ : Shape).Idx => Cert.Gnn.Layer2.biasArr (V5 m ρ) c (ix2 (0 : Fin 1) (i 0)))
      = (m ((c : Thread nD τ).loc main_arg10) : FVec Ideal ⟨1, ![64]⟩ .f32) := by
    funext i
    obtain ⟨k, rfl⟩ : ∃ k : Fin 64, i = ix1 k := ⟨i 0, eq_ix1 i⟩
    show (W5 (F := Ideal) m ρ c (Proc.devRef .tc main_v38) : FVec Ideal S1x64 .f32) (ix2 (0 : Fin 1) k) = _
    rw [W5_main_v38 m ρ c]
    refine (Cert.Rgcn.Lib.row_of_vec_apply (n := 64) (W4 (F := Ideal) m ρ c (Proc.devRef .tc main_arg10)) shapeCasts_S64_S1x64 k).trans ?_
    exact congrFun (W4_main_arg10 m ρ c) (ix1 k)
  rw [hx, ha, hr, hs, hb]

/-- Region 3 leaves the pooled table. -/
theorem W8_main_v41 (c : Dev nD) :
    (W8 (F := Ideal) m ρ c (Proc.devRef .tc main_v41) : FVec Ideal S128x64 .f32) = pooledTab m c := by
  refine (W8_arr m ρ c 2).trans ((Cert.Gnn.Pool.arr_eq (V7 m ρ) c).trans ?_)
  have hh : Cert.Gnn.Pool.Harr (V7 m ρ) c = lay3 m c := (W7_main_v39 m ρ c).trans (W6_main_v39 m ρ c)
  have hbt : (fun i : (⟨1, ![100000]⟩ : Shape).Idx => Cert.Gnn.Pool.Barr (V7 m ρ) c (ix2 (i 0) (0 : Fin 1))) = aBt m c := by
    funext i
    obtain ⟨n, rfl⟩ : ∃ n : Fin 100000, i = ix1 n := ⟨i 0, eq_ix1 i⟩
    show (W7 (F := Ideal) m ρ c (Proc.devRef .tc main_v40) : IVec S100000x1 32) (ix2 n (0 : Fin 1)) = _
    rw [W7_main_v40 m ρ c]
    refine (Cert.Rgcn.Lib.col_of_vec_apply (n := 100000) (W6 (F := Ideal) m ρ c (Proc.devRef .tc main_arg2)) shapeCasts_S100000_S100000x1 n).trans ?_
    exact congrFun (W6_main_arg2 m ρ c) (ix1 n)
  rw [hh, hbt]

/-- Region 4 leaves the normalised logits: the program's result. -/
theorem W10_main_v44 (c : Dev nD) :
    (W10 (F := Ideal) m ρ c (Proc.devRef .tc main_v44) : FVec Ideal S128x3 .f32)
      = Cert.Gnn.Norm.normK (Cert.Gnn.logitVal (pooledTab m c) (aW1 m c) (aB1 m c) (aW2 m c) (aB2 m c)) := by
  refine (W10_arr m ρ c 5).trans ((Cert.Gnn.Head.arr_eq (V9 m ρ) c).trans ?_)
  have hp : Cert.Gnn.Head.pooled (V9 m ρ) c = pooledTab m c := (W9_main_v41 m ρ c).trans (W8_main_v41 m ρ c)
  have h1 : Cert.Gnn.Head.wFc1 (V9 m ρ) c = aW1 m c := W9_main_arg12 m ρ c
  have h2 : Cert.Gnn.Head.wFc2 (V9 m ρ) c = aW2 m c := W9_main_arg14 m ρ c
  have hb1 : (fun i : (⟨1, ![64]⟩ : Shape).Idx => Cert.Gnn.Head.bFc1 (V9 m ρ) c (ix2 (0 : Fin 1) (i 0)))
      = (m ((c : Thread nD τ).loc main_arg13) : FVec Ideal ⟨1, ![64]⟩ .f32) := by
    funext i
    obtain ⟨k, rfl⟩ : ∃ k : Fin 64, i = ix1 k := ⟨i 0, eq_ix1 i⟩
    show (W9 (F := Ideal) m ρ c (Proc.devRef .tc main_v42) : FVec Ideal S1x64 .f32) (ix2 (0 : Fin 1) k) = _
    rw [W9_main_v42 m ρ c]
    refine (Cert.Rgcn.Lib.row_of_vec_apply (n := 64) (W8 (F := Ideal) m ρ c (Proc.devRef .tc main_arg13)) shapeCasts_S64_S1x64 k).trans ?_
    exact congrFun (W8_main_arg13 m ρ c) (ix1 k)
  have hb2 : (fun i : (⟨1, ![3]⟩ : Shape).Idx => Cert.Gnn.Head.bFc2 (V9 m ρ) c (ix2 (0 : Fin 1) (i 0)))
      = (m ((c : Thread nD τ).loc main_arg15) : FVec Ideal ⟨1, ![3]⟩ .f32) := by
    funext i
    obtain ⟨k, rfl⟩ : ∃ k : Fin 3, i = ix1 k := ⟨i 0, eq_ix1 i⟩
    show (W9 (F := Ideal) m ρ c (Proc.devRef .tc main_v43) : FVec Ideal S1x3 .f32) (ix2 (0 : Fin 1) k) = _
    rw [W9_main_v43 m ρ c]
    refine (Cert.Rgcn.Lib.row_of_vec_apply (n := 3) (W8 (F := Ideal) m ρ c (Proc.devRef .tc main_arg15)) shapeCasts_S3_S1x3 k).trans ?_
    exact congrFun (W8_main_arg15 m ρ c) (ix1 k)
  rw [hp, h1, h2, hb1, hb2]

/-- The result array at the return is the network function, at the kernel program's neighbour sums and
    normalisation, of the sixteen launched arguments. -/
theorem result_eq (c : Dev nD) :
    (W10 (F := Ideal) m ρ c (Proc.devRef .tc main_v44) : FVec Ideal S128x3 .f32)
      = Cert.Gnn.netVal nbrK Cert.Gnn.Norm.normK (aX m c) (aE m c) (aBt m c) (aWr1 m c) (aBr1 m c) (aWs1 m c)
          (aWr2 m c) (aBr2 m c) (aWs2 m c) (aWr3 m c) (aBr3 m c) (aWs3 m c) (aW1 m c) (aB1 m c) (aW2 m c) (aB2 m c) :=
  W10_main_v44 m ρ c

end Cert.KernelIdeal.Gen

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefValue.lean ====
/-
  The reference program's result is the network function.

  The reference computes, in order: the neighbour sums of the input features along the edges (a row lookup at the
  source words followed by an accumulating scatter at the destination words, into a zero table); a layer
  max ((agg · Wr + br) + x · Ws, 0); the same twice more, each time on the previous layer's output; the pooled table
  (an accumulating scatter of the third layer's rows at the graph words, into a zero table); a hidden layer with a
  rectifier and an output layer; and a row-wise normalisation of the logits.

  Here each of these stages is read at an index and identified with the corresponding function of the specification:
  a layer's entry is the specification's entry with the bias added between the two products (the same sum, since
  addition on the extended reals is commutative and associative); the pooling scatter at (g, j) is the zero it starts
  from plus the sum of the rows whose word, read signed, is g; the head is read entry by entry. The neighbour sums and
  the normalisation are each kept as ONE function (of the feature table and the edge array; of the logits) and never
  opened: every occurrence in the reference is that same composition of operations.
-/
import proofs.«413460_j32590211842293_1_alg».proof.Proof.Gen.ReferenceIdeal.Read
import proofs.«413460_j32590211842293_1_alg».proof.Proof.Net
import proofs.«413460_j32590211842293_1_alg».proof.Proof.LibIndexed

noncomputable section

namespace Cert.Gnn.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two functions that are never opened -/

/-- The neighbour sums of a feature table x along the edge array e: row 0 of e holds the source words, row 1
    the destination words. A negative source word is shifted up by the number of nodes; the rows of x at the
    source words are looked up and added into a zero table at the destination words. -/
def nbrR (x : FVec Ideal ⟨2, ![100000, 64]⟩ .f32) (e : IVec ⟨2, ![2, 1200000]⟩ 32) : FVec Ideal ⟨2, ![100000, 64]⟩ .f32 :=
  let s := shapeCast S1200000 (extractStridedSlice S1x1200000 ![0, 0] e slices_S2x1200000_S1x1200000_0_0) shapeCasts_S1x1200000_S1200000
  let d := shapeCast S1200000 (extractStridedSlice S1x1200000 ![1, 0] e slices_S2x1200000_S1x1200000_1_0) shapeCasts_S1x1200000_S1200000
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 x
      (broadcastInDim S1200000x1 ![0] bcast_S1200000_S1200000x1_0
        (select (cmpi .slt s (broadcastInDim S1200000 ![] bcast_S_S1200000 (constantI S_ 32 0#32)))
                (addi s (broadcastInDim S1200000 ![] bcast_S_S1200000 (constantI S_ 32 100000#32)))
                s)))

/-- The row-wise normalisation of the logits z: with r the row maximum (taken once more against minus infinity)
    and y = z − r, the result is y − log Σ exp y, the sum over the three classes of a row. -/
def normR (z : FVec Ideal ⟨2, ![128, 3]⟩ .f32) : FVec Ideal ⟨2, ![128, 3]⟩ .f32 :=
  subf
    (subf z
      (broadcastInDim S128x3 ![0, 1] bcast_S128x1_S128x3_0_1
        (broadcastInDim S128x1 ![0] bcast_S128_S128x1_0
          (maximumf (broadcastInDim S128 ![] bcast_S_S128 (constant (F := Ideal) S_ .f32 0xFF800000#32))
            (Host.reduce FloatOps.maximumf z (constant (F := Ideal) S_ .f32 0xFF800000#32) reducesTo_S128x3_S128_d1 h_S_)))))
    (broadcastInDim S128x3 ![0, 1] bcast_S128x1_S128x3_0_1
      (Host.log (F := Ideal)
        (broadcastInDim S128x1 ![0] bcast_S128_S128x1_0
          (Host.reduceAdd (F := Ideal)
            (Host.exp (F := Ideal)
              (subf z
                (broadcastInDim S128x3 ![0, 1] bcast_S128x1_S128x3_0_1
                  (broadcastInDim S128x1 ![0] bcast_S128_S128x1_0
                    (maximumf (broadcastInDim S128 ![] bcast_S_S128 (constant (F := Ideal) S_ .f32 0xFF800000#32))
                      (Host.reduce FloatOps.maximumf z (constant (F := Ideal) S_ .f32 0xFF800000#32) reducesTo_S128x3_S128_d1 h_S_))))))
            (constant (F := Ideal) S_ .f32 0x00000000#32) reducesTo_S128x3_S128_d1 h_S_))))

/-! ## The reference's neighbour sums are this function

Each of the three neighbour-sum stretches of the reference recomputes the source and destination words from the edge
array by the same operations; unfolding the stage names gives the body of nbrR at that stretch's table. -/

theorem nbr1 (x0 : FVec Ideal ⟨2, ![100000, 64]⟩ .f32) (x1 : IVec ⟨2, ![2, 1200000]⟩ 32) :
    val_main_v13 (F := Ideal) x0 x1 = nbrR x0 x1 := by
  unfold nbrR val_main_v13 val_main_v11 val_main_cst val_main_v12 val_main_v3 val_main_v2 val_main_v10 val_main_v9
    val_main_v8 val_main_v5 val_main_v7 val_main_v4 val_main_c val_main_v6 val_main_c_0 val_main_v1 val_main_v0
  rfl

theorem nbr2 (t : FVec Ideal ⟨2, ![100000, 64]⟩ .f32) (x1 : IVec ⟨2, ![2, 1200000]⟩ 32) :
    Host.scatterAdd (F := Ideal) scatter_S100000x64_S1200000x1_S1200000x64_1_0_0_1 (val_main_v28 (F := Ideal))
      (val_main_v29 (F := Ideal) x1)
      (Host.gather gather_S100000x64_S1200000x1_S1200000x64_1_0_n_n_0_1_164 t (val_main_v26 (F := Ideal) x1))
      = nbrR t x1 := by
  unfold nbrR val_main_v28 val_main_cst_3 val_main_v29 val_main_v3 val_main_v2 val_main_v26 val_main_v25
    val_main_v22 val_main_v24 val_main_v21 val_main_c_1 val_main_v23 val_main_c_2 val_main_v1 val_main_v0
  rfl

theorem nbr3 (t : FVec Ideal ⟨2, ![100000, 64]⟩ .f32) (x1 : IVec ⟨2, ![2, 1200000]⟩ 32) :
    Host.scatterAdd (F := Ideal) scatter_S100000x64_S1200000x1_S1200000x64_1_0_0_1 (val_main_v45 (F := Ideal))
      (val_main_v46 (F := Ideal) x1)
      (Host.gather gather_S100000x64_S1200000x1_S1200000x64_1_0_n_n_0_1_164 t (val_main_v43 (F := Ideal) x1))
      = nbrR t x1 := by
  unfold nbrR val_main_v45 val_main_cst_6 val_main_v46 val_main_v3 val_main_v2 val_main_v43 val_main_v42
    val_main_v39 val_main_v41 val_main_v38 val_main_c_4 val_main_v40 val_main_c_5 val_main_v1 val_main_v0
  rfl

/-! ## The three layers

A layer's entry at (n, j), read through its two products, its bias broadcasts, its two additions and its rectifier, is
the specification's entry with the bias added between the two products. -/

theorem layer1 (x0 : FVec Ideal ⟨2, ![100000, 64]⟩ .f32) (x1 : IVec ⟨2, ![2, 1200000]⟩ 32) (x3 : FVec Ideal ⟨2, ![64, 64]⟩ .f32) (x4 : FVec Ideal ⟨1, ![64]⟩ .f32) (x5 : FVec Ideal ⟨2, ![64, 64]⟩ .f32) :
    val_main_v20 (F := Ideal) x0 x1 x3 x4 x5 = layerVal (x0) (nbrR (x0) x1) x3 x4 x5 := by
  funext i
  obtain ⟨n, j, rfl⟩ : ∃ (n : Fin 100000) (j : Fin 64), i = ix2 n j := ⟨i 0, i 1, eq_ix2 i⟩
  have hagg : val_main_v13 (F := Ideal) x0 x1 = nbrR (x0) x1 := nbr1 x0 x1
  have el : ∀ k : Fin 64, lidx_main_v14 (ix2 n j) k = ix2 n k := fun k => funext fun a => Fin.ext (by
    match a with
    | ⟨0, _⟩ => rfl
    | ⟨1, _⟩ => rfl)
  have er : ∀ k : Fin 64, ridx_main_v14 (ix2 n j) k = ix2 k j := fun k => funext fun a => Fin.ext (by
    match a with
    | ⟨0, _⟩ => rfl
    | ⟨1, _⟩ => rfl)
  have el' : ∀ k : Fin 64, lidx_main_v18 (ix2 n j) k = ix2 n k := fun k => funext fun a => Fin.ext (by
    match a with
    | ⟨0, _⟩ => rfl
    | ⟨1, _⟩ => rfl)
  have er' : ∀ k : Fin 64, ridx_main_v18 (ix2 n j) k = ix2 k j := fun k => funext fun a => Fin.ext (by
    match a with
    | ⟨0, _⟩ => rfl
    | ⟨1, _⟩ => rfl)
  have eb : idx_main_v15 (idx_main_v16 (ix2 n j)) = ix1 j := funext fun a => Fin.ext (by
    match a with
    | ⟨0, _⟩ => rfl)
  rw [layerVal_ix2]
  refine Eq.trans ?_ (layerAt_bias_between (x0) (nbrR (x0) x1) x3 x4 x5 n j)
  rw [val_main_v20_apply, val_main_v19_apply, val_main_v17_apply, val_main_v14_apply, val_main_v16_apply,
    val_main_v15_apply, val_main_v18_apply, val_main_call0_v0_apply, val_main_call0_cst_apply, hagg]
  simp only [el, er, el', er', eb, Ideal.addf_def, Ideal.maximumf_def, Ideal.ofBits_def]

theorem layer2 (x0 : FVec Ideal ⟨2, ![100000, 64]⟩ .f32) (x1 : IVec ⟨2, ![2, 1200000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) :
    val_main_v37 (F := Ideal) x0 x1 x3 x4 x5 x6 x7 x8 = layerVal (val_main_v20 (F := Ideal) x0 x1 x3 x4 x5) (nbrR (val_main_v20 (F := Ideal) x0 x1 x3 x4 x5) x1) x6 x7 x8 := by
  funext i
  obtain ⟨n, j, rfl⟩ : ∃ (n : Fin 100000) (j : Fin 64), i = ix2 n j := ⟨i 0, i 1, eq_ix2 i⟩
  have hagg : val_main_v30 (F := Ideal) x0 x1 x3 x4 x5 = nbrR (val_main_v20 (F := Ideal) x0 x1 x3 x4 x5) x1 := by
    unfold val_main_v30 val_main_v27
    exact nbr2 (val_main_v20 (F := Ideal) x0 x1 x3 x4 x5) x1
  have el : ∀ k : Fin 64, lidx_main_v31 (ix2 n j) k = ix2 n k := fun k => funext fun a => Fin.ext (by
    match a with
    | ⟨0, _⟩ => rfl
    | ⟨1, _⟩ => rfl)
  have er : ∀ k : Fin 64, ridx_main_v31 (ix2 n j) k = ix2 k j := fun k => funext fun a => Fin.ext (by
    match a with
    | ⟨0, _⟩ => rfl
    | ⟨1, _⟩ => rfl)
  have el' : ∀ k : Fin 64, lidx_main_v35 (ix2 n j) k = ix2 n k := fun k => funext fun a => Fin.ext (by
    match a with
    | ⟨0, _⟩ => rfl
    | ⟨1, _⟩ => rfl)
  have er' : ∀ k : Fin 64, ridx_main_v35 (ix2 n j) k = ix2 k j := fun k => funext fun a => Fin.ext (by
    match a with
    | ⟨0, _⟩ => rfl
    | ⟨1, _⟩ => rfl)
  have eb : idx_main_v32 (idx_main_v33 (ix2 n j)) = ix1 j := funext fun a => Fin.ext (by
    match a with
    | ⟨0, _⟩ => rfl)
  rw [layerVal_ix2]
  refine Eq.trans ?_ (layerAt_bias_between (val_main_v20 (F := Ideal) x0 x1 x3 x4 x5) (nbrR (val_main_v20 (F := Ideal) x0 x1 x3 x4 x5) x1) x6 x7 x8 n j)
  rw [val_main_v37_apply, val_main_v36_apply, val_main_v34_apply, val_main_v31_apply, val_main_v33_apply,
    val_main_v32_apply, val_main_v35_apply, val_main_call1_v0_apply, val_main_call1_cst_apply, hagg]
  simp only [el, er, el', er', eb, Ideal.addf_def, Ideal.maximumf_def, Ideal.ofBits_def]

theorem layer3 (x0 : FVec Ideal ⟨2, ![100000, 64]⟩ .f32) (x1 : IVec ⟨2, ![2, 1200000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) (x9 : FVec Ideal ⟨2, ![64, 64]⟩ .f32) (x10 : FVec Ideal ⟨1, ![64]⟩ .f32) (x11 : FVec Ideal ⟨2, ![64, 64]⟩ .f32) :
    val_main_v54 (F := Ideal) x0 x1 x3 x4 x5 x6 x7 x8 x9 x10 x11 = layerVal (val_main_v37 (F := Ideal) x0 x1 x3 x4 x5 x6 x7 x8) (nbrR (val_main_v37 (F := Ideal) x0 x1 x3 x4 x5 x6 x7 x8) x1) x9 x10 x11 := by
  funext i
  obtain ⟨n, j, rfl⟩ : ∃ (n : Fin 100000) (j : Fin 64), i = ix2 n j := ⟨i 0, i 1, eq_ix2 i⟩
  have hagg : val_main_v47 (F := Ideal) x0 x1 x3 x4 x5 x6 x7 x8 = nbrR (val_main_v37 (F := Ideal) x0 x1 x3 x4 x5 x6 x7 x8) x1 := by
    unfold val_main_v47 val_main_v44
    exact nbr3 (val_main_v37 (F := Ideal) x0 x1 x3 x4 x5 x6 x7 x8) x1
  have el : ∀ k : Fin 64, lidx_main_v48 (ix2 n j) k = ix2 n k := fun k => funext fun a => Fin.ext (by
    match a with
    | ⟨0, _⟩ => rfl
    | ⟨1, _⟩ => rfl)
  have er : ∀ k : Fin 64, ridx_main_v48 (ix2 n j) k = ix2 k j := fun k => funext fun a => Fin.ext (by
    match a with
    | ⟨0, _⟩ => rfl
    | ⟨1, _⟩ => rfl)
  have el' : ∀ k : Fin 64, lidx_main_v52 (ix2 n j) k = ix2 n k := fun k => funext fun a => Fin.ext (by
    match a with
    | ⟨0, _⟩ => rfl
    | ⟨1, _⟩ => rfl)
  have er' : ∀ k : Fin 64, ridx_main_v52 (ix2 n j) k = ix2 k j := fun k => funext fun a => Fin.ext (by
    match a with
    | ⟨0, _⟩ => rfl
    | ⟨1, _⟩ => rfl)
  have eb : idx_main_v49 (idx_main_v50 (ix2 n j)) = ix1 j := funext fun a => Fin.ext (by
    match a with
    | ⟨0, _⟩ => rfl)
  rw [layerVal_ix2]
  refine Eq.trans ?_ (layerAt_bias_between (val_main_v37 (F := Ideal) x0 x1 x3 x4 x5 x6 x7 x8) (nbrR (val_main_v37 (F := Ideal) x0 x1 x3 x4 x5 x6 x7 x8) x1) x9 x10 x11 n j)
  rw [val_main_v54_apply, val_main_v53_apply, val_main_v51_apply, val_main_v48_apply, val_main_v50_apply,
    val_main_v49_apply, val_main_v52_apply, val_main_call2_v0_apply, val_main_call2_cst_apply, hagg]
  simp only [el, er, el', er', eb, Ideal.addf_def, Ideal.maximumf_def, Ideal.ofBits_def]

/-! ## The pooled table

The accumulating scatter into the zero table [128, 64] at the graph words, read at (g, j): the zero plus the sum of
the rows whose word, read signed, is g. -/

theorem pool_eq (x0 : FVec Ideal ⟨2, ![100000, 64]⟩ .f32) (x1 : IVec ⟨2, ![2, 1200000]⟩ 32) (x2 : IVec ⟨1, ![100000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) (x9 : FVec Ideal ⟨2, ![64, 64]⟩ .f32) (x10 : FVec Ideal ⟨1, ![64]⟩ .f32) (x11 : FVec Ideal ⟨2, ![64, 64]⟩ .f32) :
    val_main_v57 (F := Ideal) x0 x1 x2 x3 x4 x5 x6 x7 x8 x9 x10 x11 = poolVal (val_main_v54 (F := Ideal) x0 x1 x3 x4 x5 x6 x7 x8 x9 x10 x11) x2 := by
  funext i
  obtain ⟨g, j, rfl⟩ : ∃ (g : Fin 128) (j : Fin 64), i = ix2 g j := ⟨i 0, i 1, eq_ix2 i⟩
  rw [poolVal_ix2]
  unfold val_main_v57 poolAt
  generalize val_main_v54 (F := Ideal) x0 x1 x3 x4 x5 x6 x7 x8 x9 x10 x11 = h3
  refine (Cert.Rgcn.Lib.scatterAdd_rows_apply (N := 128) (K := 64) (E := 100000) (w := 32)
    scatter_S128x64_S100000x1_S100000x64_1_0_0_1 scatter_S128x64_S100000x1_S100000x64_1_0_0_1_wf rfl
    (val_main_v55 (F := Ideal)) (val_main_v56 (F := Ideal) x2) h3 g j).trans ?_
  have ez : val_main_v55 (F := Ideal) (ix2 g j) = zeroF := by
    rw [val_main_v55_apply, val_main_cst_7_apply]
    rfl
  have ew : ∀ e : Fin 100000, val_main_v56 (F := Ideal) x2 (ix2 e (0 : Fin 1)) = x2 (ix1 e) := fun e => by
    rw [val_main_v56_apply]
    exact congrArg x2 (funext fun a => Fin.ext (by
    match a with
    | ⟨0, _⟩ => rfl))
  rw [ez]
  simp only [ew]

/-! ## The head -/

theorem hidden_eq (x0 : FVec Ideal ⟨2, ![100000, 64]⟩ .f32) (x1 : IVec ⟨2, ![2, 1200000]⟩ 32) (x2 : IVec ⟨1, ![100000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) (x9 : FVec Ideal ⟨2, ![64, 64]⟩ .f32) (x10 : FVec Ideal ⟨1, ![64]⟩ .f32) (x11 : FVec Ideal ⟨2, ![64, 64]⟩ .f32) (x12 : FVec Ideal ⟨2, ![64, 64]⟩ .f32) (x13 : FVec Ideal ⟨1, ![64]⟩ .f32) (g : Fin 128) (j : Fin 64) :
    val_main_v62 (F := Ideal) x0 x1 x2 x3 x4 x5 x6 x7 x8 x9 x10 x11 x12 x13 (ix2 g j) = hiddenAt (val_main_v57 (F := Ideal) x0 x1 x2 x3 x4 x5 x6 x7 x8 x9 x10 x11) x12 x13 g j := by
  have el : ∀ k : Fin 64, lidx_main_v58 (ix2 g j) k = ix2 g k := fun k => funext fun a => Fin.ext (by
    match a with
    | ⟨0, _⟩ => rfl
    | ⟨1, _⟩ => rfl)
  have er : ∀ k : Fin 64, ridx_main_v58 (ix2 g j) k = ix2 k j := fun k => funext fun a => Fin.ext (by
    match a with
    | ⟨0, _⟩ => rfl
    | ⟨1, _⟩ => rfl)
  have eb : idx_main_v59 (idx_main_v60 (ix2 g j)) = ix1 j := funext fun a => Fin.ext (by
    match a with
    | ⟨0, _⟩ => rfl)
  unfold hiddenAt
  rw [val_main_v62_apply, val_main_v61_apply, val_main_v58_apply, val_main_v60_apply, val_main_v59_apply,
    val_main_call3_v0_apply, val_main_call3_cst_apply]
  simp only [el, er, eb, Ideal.addf_def, Ideal.maximumf_def, Ideal.ofBits_def]

theorem head_eq (x0 : FVec Ideal ⟨2, ![100000, 64]⟩ .f32) (x1 : IVec ⟨2, ![2, 1200000]⟩ 32) (x2 : IVec ⟨1, ![100000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) (x9 : FVec Ideal ⟨2, ![64, 64]⟩ .f32) (x10 : FVec Ideal ⟨1, ![64]⟩ .f32) (x11 : FVec Ideal ⟨2, ![64, 64]⟩ .f32) (x12 : FVec Ideal ⟨2, ![64, 64]⟩ .f32) (x13 : FVec Ideal ⟨1, ![64]⟩ .f32) (x14 : FVec Ideal ⟨2, ![64, 3]⟩ .f32) (x15 : FVec Ideal ⟨1, ![3]⟩ .f32) :
    val_main_v66 (F := Ideal) x0 x1 x2 x3 x4 x5 x6 x7 x8 x9 x10 x11 x12 x13 x14 x15 = logitVal (val_main_v57 (F := Ideal) x0 x1 x2 x3 x4 x5 x6 x7 x8 x9 x10 x11) x12 x13 x14 x15 := by
  funext i
  obtain ⟨g, c, rfl⟩ : ∃ (g : Fin 128) (c : Fin 3), i = ix2 g c := ⟨i 0, i 1, eq_ix2 i⟩
  have el : ∀ k : Fin 64, lidx_main_v63 (ix2 g c) k = ix2 g k := fun k => funext fun a => Fin.ext (by
    match a with
    | ⟨0, _⟩ => rfl
    | ⟨1, _⟩ => rfl)
  have er : ∀ k : Fin 64, ridx_main_v63 (ix2 g c) k = ix2 k c := fun k => funext fun a => Fin.ext (by
    match a with
    | ⟨0, _⟩ => rfl
    | ⟨1, _⟩ => rfl)
  have eb : idx_main_v64 (idx_main_v65 (ix2 g c)) = ix1 c := funext fun a => Fin.ext (by
    match a with
    | ⟨0, _⟩ => rfl)
  rw [logitVal_ix2]
  unfold logitAt
  rw [val_main_v66_apply, val_main_v63_apply, val_main_v65_apply, val_main_v64_apply]
  simp only [el, er, eb, hidden_eq, Ideal.addf_def]

/-! ## The normalisation

Unfolding the stage names of the last stretch gives the body of normR at the logits. -/

theorem norm_eq (x0 : FVec Ideal ⟨2, ![100000, 64]⟩ .f32) (x1 : IVec ⟨2, ![2, 1200000]⟩ 32) (x2 : IVec ⟨1, ![100000]⟩ 32) (x3 : FVec Ideal ⟨2, ![64, 64]⟩ .f32) (x4 : FVec Ideal ⟨1, ![64]⟩ .f32) (x5 : FVec Ideal ⟨2, ![64, 64]⟩ .f32) (x6 : FVec Ideal ⟨2, ![64, 64]⟩ .f32) (x7 : FVec Ideal ⟨1, ![64]⟩ .f32) (x8 : FVec Ideal ⟨2, ![64, 64]⟩ .f32) (x9 : FVec Ideal ⟨2, ![64, 64]⟩ .f32) (x10 : FVec Ideal ⟨1, ![64]⟩ .f32) (x11 : FVec Ideal ⟨2, ![64, 64]⟩ .f32) (x12 : FVec Ideal ⟨2, ![64, 64]⟩ .f32) (x13 : FVec Ideal ⟨1, ![64]⟩ .f32) (x14 : FVec Ideal ⟨2, ![64, 3]⟩ .f32) (x15 : FVec Ideal ⟨1, ![3]⟩ .f32) :
    val_main_v67 (F := Ideal) x0 x1 x2 x3 x4 x5 x6 x7 x8 x9 x10 x11 x12 x13 x14 x15 = normR (val_main_v66 (F := Ideal) x0 x1 x2 x3 x4 x5 x6 x7 x8 x9 x10 x11 x12 x13 x14 x15) := by
  unfold normR val_main_v67 val_main_call4_v10 val_main_call4_v9 val_main_call4_v8 val_main_call4_v7 val_main_call4_cst_1
    val_main_call4_v6 val_main_call4_v5 val_main_call4_v4 val_main_call4_v3 val_main_call4_v2 val_main_call4_v1
    val_main_call4_cst_0 val_main_call4_v0 val_main_call4_cst
  rfl

/-! ## The result -/

variable (m : (ℓ : Loc nD τ sig) → Buf (Elt Ideal) ℓ)

/-- The sixteen arguments in the memory the program starts from, each at its array type. -/
abbrev argX (c : Dev nD) : FVec Ideal ⟨2, ![100000, 64]⟩ .f32 := m ((c.tc : Thread nD τ).loc main_arg0)
abbrev argE (c : Dev nD) : IVec ⟨2, ![2, 1200000]⟩ 32 := m ((c.tc : Thread nD τ).loc main_arg1)
abbrev argBt (c : Dev nD) : IVec ⟨1, ![100000]⟩ 32 := m ((c.tc : Thread nD τ).loc main_arg2)
abbrev argWr1 (c : Dev nD) : FVec Ideal ⟨2, ![64, 64]⟩ .f32 := m ((c.tc : Thread nD τ).loc main_arg3)
abbrev argBr1 (c : Dev nD) : FVec Ideal ⟨1, ![64]⟩ .f32 := m ((c.tc : Thread nD τ).loc main_arg4)
abbrev argWs1 (c : Dev nD) : FVec Ideal ⟨2, ![64, 64]⟩ .f32 := m ((c.tc : Thread nD τ).loc main_arg5)
abbrev argWr2 (c : Dev nD) : FVec Ideal ⟨2, ![64, 64]⟩ .f32 := m ((c.tc : Thread nD τ).loc main_arg6)
abbrev argBr2 (c : Dev nD) : FVec Ideal ⟨1, ![64]⟩ .f32 := m ((c.tc : Thread nD τ).loc main_arg7)
abbrev argWs2 (c : Dev nD) : FVec Ideal ⟨2, ![64, 64]⟩ .f32 := m ((c.tc : Thread nD τ).loc main_arg8)
abbrev argWr3 (c : Dev nD) : FVec Ideal ⟨2, ![64, 64]⟩ .f32 := m ((c.tc : Thread nD τ).loc main_arg9)
abbrev argBr3 (c : Dev nD) : FVec Ideal ⟨1, ![64]⟩ .f32 := m ((c.tc : Thread nD τ).loc main_arg10)
abbrev argWs3 (c : Dev nD) : FVec Ideal ⟨2, ![64, 64]⟩ .f32 := m ((c.tc : Thread nD τ).loc main_arg11)
abbrev argW1 (c : Dev nD) : FVec Ideal ⟨2, ![64, 64]⟩ .f32 := m ((c.tc : Thread nD τ).loc main_arg12)
abbrev argB1 (c : Dev nD) : FVec Ideal ⟨1, ![64]⟩ .f32 := m ((c.tc : Thread nD τ).loc main_arg13)
abbrev argW2 (c : Dev nD) : FVec Ideal ⟨2, ![64, 3]⟩ .f32 := m ((c.tc : Thread nD τ).loc main_arg14)
abbrev argB2 (c : Dev nD) : FVec Ideal ⟨1, ![3]⟩ .f32 := m ((c.tc : Thread nD τ).loc main_arg15)

/-- The reference's result is the network function of its sixteen arguments, over its own neighbour sums and
    normalisation. -/
theorem res_eq (c : Dev nD) :
    Cert.ReferenceIdeal.Value.res_main_v67 (F := Ideal) m c
      = netVal nbrR normR (argX m c) (argE m c) (argBt m c) (argWr1 m c) (argBr1 m c) (argWs1 m c) (argWr2 m c) (argBr2 m c)
          (argWs2 m c) (argWr3 m c) (argBr3 m c) (argWs3 m c) (argW1 m c) (argB1 m c) (argW2 m c) (argB2 m c) := by
  refine (val_main_v67_eq (F := Ideal) m c).trans ?_
  show val_main_v67 (F := Ideal) (argX m c) (argE m c) (argBt m c) (argWr1 m c) (argBr1 m c) (argWs1 m c) (argWr2 m c)
    (argBr2 m c) (argWs2 m c) (argWr3 m c) (argBr3 m c) (argWs3 m c) (argW1 m c) (argB1 m c) (argW2 m c) (argB2 m c) = _
  rw [norm_eq, head_eq, pool_eq, layer3, layer2, layer1]
  unfold netVal
  rfl

end Cert.Gnn.RefValue

end
-- ==== Proof.lean ====
/-
  The certificate of a graph network: three graph-convolution layers, a sum pooling over graphs and a two-layer head
  with a row-wise log-softmax, as a kernel program of five pipelined regions among host operations, against a host
  reference.

  Both idealized programs compute ONE function of their sixteen arguments on the extended reals (`Cert.Gnn.netVal`).
  Each layer is max ((Σ agg·Wr + Σ x·Ws) + b, 0); the kernel adds the bias last and the reference between the two
  products, the same sum since addition on the extended reals is commutative and associative. The neighbour sums `agg`
  come from the same host operations in both programs and are carried as one function, never opened. The kernel pools
  by a product with a one-hot table, accumulated over twenty blocks of nodes, the reference by an accumulating scatter:
  both are the sum over the nodes whose graph word, read signed, names the graph (a one is the unit and a zero
  annihilates every extended real, the infinities included). The two log-softmax tails differ in how the row maximum
  and the row sum are written and in one further maximum with minus infinity, which is the identity.
  No finiteness of the inputs is used: the precondition is never opened.

  The kernel program's run with its result kept is the five-region launch called once more (KernelRun); the value of
  each region is read off its frame (Layer0, Layer1, Layer2, Pool, Head) and threaded through the run's boundaries
  (Carry, Nbr, KernelValue); the reference's value is read off its generated run (RefValue); Norm joins the two tails.
-/
import proofs.«413460_j32590211842293_1_alg».proof.Defs
import proofs.«413460_j32590211842293_1_alg».proof.Proof.Gen.Kernel
import proofs.«413460_j32590211842293_1_alg».proof.Proof.Gen.Kernel.Skeleton
import proofs.«413460_j32590211842293_1_alg».proof.Proof.Gen.Kernel.Launch
import proofs.«413460_j32590211842293_1_alg».proof.Proof.Gen.Kernel.Points
import proofs.«413460_j32590211842293_1_alg».proof.Proof.Gen.Kernel.Frame
import proofs.«413460_j32590211842293_1_alg».proof.Proof.Gen.KernelIdeal
import proofs.«413460_j32590211842293_1_alg».proof.Proof.Gen.KernelIdeal.Skeleton
import proofs.«413460_j32590211842293_1_alg».proof.Proof.Gen.KernelIdeal.Launch
import proofs.«413460_j32590211842293_1_alg».proof.Proof.Gen.KernelIdeal.Points
import proofs.«413460_j32590211842293_1_alg».proof.Proof.Gen.KernelIdeal.Frame
import proofs.«413460_j32590211842293_1_alg».proof.Proof.Gen.ReferenceIdeal
import proofs.«413460_j32590211842293_1_alg».proof.Proof.Gen.ReferenceIdeal.Run
import proofs.«413460_j32590211842293_1_alg».proof.Proof.Gen.ReferenceIdeal.Read
import proofs.«413460_j32590211842293_1_alg».proof.Proof.Gen.Pre_finite_inputs
import proofs.«413460_j32590211842293_1_alg».proof.Proof.KernelValue
import proofs.«413460_j32590211842293_1_alg».proof.Proof.RefValue
import proofs.«413460_j32590211842293_1_alg».proof.Proof.Norm
import Idealize.ShloMosaic.Adequacy
import Idealize.ShloMosaic.Init

set_option maxRecDepth 16384

noncomputable section

namespace Cert.Proof

open Idealize.ShloMosaic Idealize.SL.Sem

/-- The two programs' neighbour-sum chains are the same operations over records that differ only in their proofs. -/
theorem nbr_same : Cert.Gnn.RefValue.nbrR = Cert.KernelIdeal.Gen.nbrK := rfl

/-- The reference's log-softmax tail is the kernel's: the same printed operations as the normalisation module's
    reference form, which that module proves equal to the kernel form. -/
theorem norm_same : Cert.Gnn.RefValue.normR = Cert.Gnn.Norm.normK :=
  (show Cert.Gnn.RefValue.normR = Cert.Gnn.Norm.normR from rfl).trans (funext Cert.Gnn.Norm.normK_eq_normR).symm

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the exact values. -/
theorem preserves : Cert.preserves_Kernel_KernelIdeal := trivial

/-- From memories agreeing on the sixteen arguments both programs end with the network function of those arguments
    in their result arrays. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v44),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  have e0 : Cert.Gnn.RefValue.argX m' c = Cert.KernelIdeal.Gen.aX m c := h0
  have e1 : Cert.Gnn.RefValue.argE m' c = Cert.KernelIdeal.Gen.aE m c := h1
  have e2 : Cert.Gnn.RefValue.argBt m' c = Cert.KernelIdeal.Gen.aBt m c := h2
  have e3 : Cert.Gnn.RefValue.argWr1 m' c = Cert.KernelIdeal.Gen.aWr1 m c := h3
  have e4 : Cert.Gnn.RefValue.argBr1 m' c = Cert.KernelIdeal.Gen.aBr1 m c := h4
  have e5 : Cert.Gnn.RefValue.argWs1 m' c = Cert.KernelIdeal.Gen.aWs1 m c := h5
  have e6 : Cert.Gnn.RefValue.argWr2 m' c = Cert.KernelIdeal.Gen.aWr2 m c := h6
  have e7 : Cert.Gnn.RefValue.argBr2 m' c = Cert.KernelIdeal.Gen.aBr2 m c := h7
  have e8 : Cert.Gnn.RefValue.argWs2 m' c = Cert.KernelIdeal.Gen.aWs2 m c := h8
  have e9 : Cert.Gnn.RefValue.argWr3 m' c = Cert.KernelIdeal.Gen.aWr3 m c := h9
  have e10 : Cert.Gnn.RefValue.argBr3 m' c = Cert.KernelIdeal.Gen.aBr3 m c := h10
  have e11 : Cert.Gnn.RefValue.argWs3 m' c = Cert.KernelIdeal.Gen.aWs3 m c := h11
  have e12 : Cert.Gnn.RefValue.argW1 m' c = Cert.KernelIdeal.Gen.aW1 m c := h12
  have e13 : Cert.Gnn.RefValue.argB1 m' c = Cert.KernelIdeal.Gen.aB1 m c := h13
  have e14 : Cert.Gnn.RefValue.argW2 m' c = Cert.KernelIdeal.Gen.aW2 m c := h14
  have e15 : Cert.Gnn.RefValue.argB2 m' c = Cert.KernelIdeal.Gen.aB2 m c := h15
  refine (Cert.Gnn.RefValue.res_eq m' c).trans (Eq.trans ?_ (Cert.KernelIdeal.Gen.result_eq m ρ c).symm)
  rw [e0, e1, e2, e3, e4, e5, e6, e7, e8, e9, e10, e11, e12, e13, e14, e15, nbr_same, norm_same]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
